-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x32x32 : Shape := ⟨4, ![8, 2048, 32, 32]⟩
abbrev S256x2048x1x1 : Shape := ⟨4, ![256, 2048, 1, 1]⟩
abbrev S256 : Shape := ⟨1, ![256]⟩
abbrev S_ : Shape := ⟨0, ![]⟩

class Facts : Prop where
  bcast_S_S8x2048x32x32 : S_.BroadcastsInDim S8x2048x32x32 (![] : Fin 0 → Fin S8x2048x32x32.rank)
  reducesTo_S8x2048x32x32_S_d0_1_2_3 : S8x2048x32x32.ReducesTo [0, 1, 2, 3] S_
  h_S_ : 0 < S_.numel
  bcast_S_S256x2048x1x1 : S_.BroadcastsInDim S256x2048x1x1 (![] : Fin 0 → Fin S256x2048x1x1.rank)
  reducesTo_S256x2048x1x1_S_d0_1_2_3 : S256x2048x1x1.ReducesTo [0, 1, 2, 3] S_
  bcast_S_S256 : S_.BroadcastsInDim S256 (![] : Fin 0 → Fin S256.rank)
  reducesTo_S256_S_d0 : S256.ReducesTo [0] S_

variable [Facts]

def fn_part1 {F : FTy → Type} [FloatOps F] (main_arg4 : FVec F S256 .f32) (main_arg5 : FVec F S256 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  main_v28

def fn {F : FTy → Type} [FloatOps F] (main_arg0 : FVec F S8x2048x32x32 .f32) (main_arg1 : FVec F S256x2048x1x1 .f32) (main_arg2 : FVec F S256 .f32) (main_arg3 : FVec F S256 .f32) (main_arg4 : FVec F S256 .f32) (main_arg5 : FVec F S256 .f32) : IVec S_ 1 :=
  let main_v0 : FVec F S8x2048x32x32 .f32 := Host.absf main_arg0
  let main_cst : FVec F S_ .f32 := constant S_ .f32 0x7F800000#32
  let main_v1 : FVec F S8x2048x32x32 .f32 := broadcastInDim S8x2048x32x32 ![] bcast_S_S8x2048x32x32 main_cst
  let main_v2 : IVec S8x2048x32x32 1 := cmpf .olt main_v0 main_v1
  let main_c : IVec S_ 1 := constantI S_ 1 1#1
  let main_v3 : IVec S_ 1 := (fun x v => Host.reduce IntOp.andi x v reducesTo_S8x2048x32x32_S_d0_1_2_3 h_S_) main_v2 main_c
  let main_v4 : FVec F S256x2048x1x1 .f32 := Host.absf main_arg1
  let main_cst_0 : FVec F S_ .f32 := constant S_ .f32 0x7F800000#32
  let main_v5 : FVec F S256x2048x1x1 .f32 := broadcastInDim S256x2048x1x1 ![] bcast_S_S256x2048x1x1 main_cst_0
  let main_v6 : IVec S256x2048x1x1 1 := cmpf .olt main_v4 main_v5
  let main_c_1 : IVec S_ 1 := constantI S_ 1 1#1
  let main_v7 : IVec S_ 1 := (fun x v => Host.reduce IntOp.andi x v reducesTo_S256x2048x1x1_S_d0_1_2_3 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_v13 main_v16
-- ==== Kernel.lean ====
abbrev S8x2048x32x32 : Shape := ⟨4, ![8, 2048, 32, 32]⟩
abbrev S256x2048x1x1 : Shape := ⟨4, ![256, 2048, 1, 1]⟩
abbrev S256 : Shape := ⟨1, ![256]⟩
abbrev S_ : Shape := ⟨0, ![]⟩
abbrev S1x256 : Shape := ⟨2, ![1, 256]⟩
abbrev S256x16x128 : Shape := ⟨3, ![256, 16, 128]⟩
abbrev S256x1x1 : Shape := ⟨3, ![256, 1, 1]⟩
abbrev S8x32x32x2048 : Shape := ⟨4, ![8, 32, 32, 2048]⟩
abbrev S8x1024x2048 : Shape := ⟨3, ![8, 1024, 2048]⟩
abbrev S8x1024x256 : Shape := ⟨3, ![8, 1024, 256]⟩
abbrev S1x1024x1024 : Shape := ⟨3, ![1, 1024, 1024]⟩
abbrev S1x1024x256 : Shape := ⟨3, ![1, 1024, 256]⟩
abbrev S256x2048 : Shape := ⟨2, ![256, 2048]⟩
abbrev S1024x1024 : Shape := ⟨2, ![1024, 1024]⟩
abbrev S1024 : Shape := ⟨1, ![1024]⟩
abbrev S1x1024 : Shape := ⟨2, ![1, 1024]⟩
abbrev S256x1024 : Shape := ⟨2, ![256, 1024]⟩
abbrev S1024x256 : Shape := ⟨2, ![1024, 256]⟩
abbrev S8x32x32x256 : Shape := ⟨4, ![8, 32, 32, 256]⟩
abbrev S8x256x32x32 : Shape := ⟨4, ![8, 256, 32, 32]⟩

abbrev nBuf : Space → Nat
  | .hbm => 26
  | .vmem => 8
  | .smem => 0
  | _ => 0

abbrev bufTy : (tb : Table) → Fin (tcTables nBuf tb) → BufTy
  | .hbm, ⟨0, _⟩ => ⟨S8x2048x32x32, .f32⟩
  | .hbm, ⟨1, _⟩ => ⟨S256x2048x1x1, .f32⟩
  | .hbm, ⟨2, _⟩ => ⟨S256, .f32⟩
  | .hbm, ⟨3, _⟩ => ⟨S256, .f32⟩
  | .hbm, ⟨4, _⟩ => ⟨S256, .f32⟩
  | .hbm, ⟨5, _⟩ => ⟨S256, .f32⟩
  | .hbm, ⟨6, _⟩ => ⟨S_, .f32⟩
  | .hbm, ⟨7, _⟩ => ⟨S256, .f32⟩
  | .hbm, ⟨8, _⟩ => ⟨S256, .f32⟩
  | .hbm, ⟨9, _⟩ => ⟨S256, .f32⟩
  | .hbm, ⟨10, _⟩ => ⟨S256, .f32⟩
  | .hbm, ⟨11, _⟩ => ⟨S256, .f32⟩
  | .hbm, ⟨12, _⟩ => ⟨S256, .f32⟩
  | .hbm, ⟨13, _⟩ => ⟨S1x256, .f32⟩
  | .hbm, ⟨14, _⟩ => ⟨S256x16x128, .f32⟩
  | .hbm, ⟨15, _⟩ => ⟨S_, .f32⟩
  | .hbm, ⟨16, _⟩ => ⟨S256, .f32⟩
  | .hbm, ⟨17, _⟩ => ⟨S256, .f32⟩
  | .hbm, ⟨18, _⟩ => ⟨S256x1x1, .f32⟩
  | .hbm, ⟨19, _⟩ => ⟨S256x16x128, .f32⟩
  | .hbm, ⟨20, _⟩ => ⟨S256x16x128, .f32⟩
  | .hbm, ⟨21, _⟩ => ⟨S8x32x32x2048, .f32⟩
  | .hbm, ⟨22, _⟩ => ⟨S8x1024x2048, .f32⟩
  | .hbm, ⟨23, _⟩ => ⟨S8x1024x256, .f32⟩
  | .hbm, ⟨24, _⟩ => ⟨S8x32x32x256, .f32⟩
  | .hbm, ⟨25, _⟩ => ⟨S8x256x32x32, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024x1024, .f32⟩
  | .local _ .vmem, ⟨3, _⟩ => ⟨S1x1024x1024, .f32⟩
  | .local _ .vmem, ⟨4, _⟩ => ⟨S256x16x128, .f32⟩
  | .local _ .vmem, ⟨5, _⟩ => ⟨S1x256, .f32⟩
  | .local _ .vmem, ⟨6, _⟩ => ⟨S1x1024x256, .f32⟩
  | .local _ .vmem, ⟨7, _⟩ => ⟨S1x1024x256, .f32⟩
  | _, _ => ⟨S8x2048x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c1_i32 : BitVec 32 := 1#32
  let c0_i32_0 : BitVec 32 := 0#32
  ![arg0.toNat, c0_i32.toNat, c1_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x16x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bcast_S_S256 : S_.BroadcastsInDim S256 (![] : Fin 0 → Fin S256.rank)
  bcast_S256_S1x256_1 : S256.BroadcastsInDim S1x256 (![1] : Fin 1 → Fin S1x256.rank)
  shapeCasts_S256x2048x1x1_S256x16x128 : S256x2048x1x1.ShapeCasts S256x16x128
  bcast_S256_S256x1x1_0 : S256.BroadcastsInDim S256x1x1 (![0] : Fin 1 → Fin S256x1x1.rank)
  bcast_S256x1x1_S256x16x128_0_1_2 : S256x1x1.BroadcastsInDim S256x16x128 (![0, 1, 2] : Fin 3 → Fin S256x16x128.rank)
  transposes_S8x2048x32x32_S8x32x32x2048_0_2_3_1 : S8x2048x32x32.Transposes [0, 2, 3, 1] S8x32x32x2048
  shapeCasts_S8x32x32x2048_S8x1024x2048 : S8x32x32x2048.ShapeCasts S8x1024x2048
  inb_S256x16x128_S256x16x128_0_0_0 : ∀ a, (![0, 0, 0] : Fin 3 → Nat) a + S256x16x128.size a ≤ S256x16x128.size a
  h_S256x16x128 : 0 < S256x16x128.numel
  shapeCasts_S256x16x128_S256x16x128 : S256x16x128.ShapeCasts S256x16x128
  shapeCasts_S256x16x128_S256x2048 : S256x16x128.ShapeCasts S256x2048
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  reduces_S1024x1024_S1024 : S1024x1024.Reduces [0] S1024
  shapeCasts_S1024_S1x1024 : S1024.ShapeCasts S1x1024
  slices_S256x2048_o0_0_S256x1024 : S256x2048.Slices ![0, 0] S256x1024
  slices_S256x2048_o0_1024_S256x1024 : S256x2048.Slices ![0, 1024] S256x1024
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  inb_S1x1024x256_S1x1024x256_0_0_0 : ∀ a, (![0, 0, 0] : Fin 3 → Nat) a + S1x1024x256.size a ≤ S1x1024x256.size a
  h_S1x1024x256 : 0 < S1x1024x256.numel
  shapeCasts_S1x1024x256_S1024x256 : S1x1024x256.ShapeCasts S1024x256
  shapeCasts_S1024x256_S1x1024x256 : S1024x256.ShapeCasts S1x1024x256
  shapeCasts_S8x1024x256_S8x32x32x256 : S8x1024x256.ShapeCasts S8x32x32x256
  transposes_S8x32x32x256_S8x256x32x32_0_3_1_2 : S8x32x32x256.Transposes [0, 3, 1, 2] S8x256x32x32
  dot_S1x1024_S256x1024_S1x256_1_1_0_0_n_n_wf : DotDims.WF S1x1024 S256x1024 S1x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x1024.size a ≤ S8x1024x2048.size a
  hwx0_0 : ∀ i : grid0.Coords, EltTy.bits .f32 = 32 ∨ (Rect.block (s := S8x1024x2048) S1x1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x1024.size a ≤ S8x1024x2048.size a
  hwx0_1 : ∀ i : grid0.Coords, EltTy.bits .f32 = 32 ∨ (Rect.block (s := S8x1024x2048) S1x1024x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x16x128.size a ≤ S256x16x128.size a
  hwx0_2 : ∀ i : grid0.Coords, EltTy.bits .f32 = 32 ∨ (Rect.block (s := S256x16x128) S256x16x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024x256.size a ≤ S8x1024x256.size a
  hwx0_4 : ∀ i : grid0.Coords, EltTy.bits .f32 = 32 ∨ (Rect.block (s := S8x1024x256) S1x1024x256.size (cc0_transform_4 i) (hinb0_4 i)).WholeWords (EltTy.packing .f32)

variable [Facts₀]

def dot_S1x1024_S256x1024_S1x256_1_1_0_0_n_n : DotDims S1x1024 S256x1024 S1x256 where
  lhsContracting := [1]
  rhsContracting := [1]
  lhsNonContracting := [0]
  rhsNonContracting := [0]
  lhsBatch := []
  rhsBatch := []
  wf := dot_S1x1024_S256x1024_S1x256_1_1_0_0_n_n_wf

abbrev win0_0 : Pipeline.Window sig grid0 :=
  Pipeline.Window.ofSpec (Memref.whole main_v14) S1x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S1x1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S256x16x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v15) S1x1024x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8x2048x32x32 : Shape := ⟨4, ![8, 2048, 32, 32]⟩
abbrev S256x2048x1x1 : Shape := ⟨4, ![256, 2048, 1, 1]⟩
abbrev S256 : Shape := ⟨1, ![256]⟩
abbrev S_ : Shape := ⟨0, ![]⟩
abbrev S256x2048 : Shape := ⟨2, ![256, 2048]⟩
abbrev S2048x256 : Shape := ⟨2, ![2048, 256]⟩
abbrev S1x256 : Shape := ⟨2, ![1, 256]⟩
abbrev S8x2048x1024 : Shape := ⟨3, ![8, 2048, 1024]⟩
abbrev S8x1x1x256 : Shape := ⟨4, ![8, 1, 1, 256]⟩
abbrev S1x2048x1024 : Shape := ⟨3, ![1, 2048, 1024]⟩
abbrev S1x1x1x256 : Shape := ⟨4, ![1, 1, 1, 256]⟩
abbrev S1x2048 : Shape := ⟨2, ![1, 2048]⟩
abbrev S8x1x256 : Shape := ⟨3, ![8, 1, 256]⟩
abbrev S8x256 : Shape := ⟨2, ![8, 256]⟩
abbrev S8x256x1 : Shape := ⟨3, ![8, 256, 1]⟩
abbrev S8x256x1024 : Shape := ⟨3, ![8, 256, 1024]⟩
abbrev S1x256x1 : Shape := ⟨3, ![1, 256, 1]⟩
abbrev S1x256x1024 : Shape := ⟨3, ![1, 256, 1024]⟩
abbrev S8x256x32x32 : Shape := ⟨4, ![8, 256, 32, 32]⟩

abbrev nBuf : Space → Nat
  | .hbm => 35
  | .vmem => 10
  | .smem => 0
  | _ => 0

abbrev bufTy : (tb : Table) → Fin (tcTables nBuf tb) → BufTy
  | .hbm, ⟨0, _⟩ => ⟨S8x2048x32x32, .f32⟩
  | .hbm, ⟨1, _⟩ => ⟨S256x2048x1x1, .f32⟩
  | .hbm, ⟨2, _⟩ => ⟨S256, .f32⟩
  | .hbm, ⟨3, _⟩ => ⟨S256, .f32⟩
  | .hbm, ⟨4, _⟩ => ⟨S256, .f32⟩
  | .hbm, ⟨5, _⟩ => ⟨S256, .f32⟩
  | .hbm, ⟨6, _⟩ => ⟨S_, .f32⟩
  | .hbm, ⟨7, _⟩ => ⟨S256, .f32⟩
  | .hbm, ⟨8, _⟩ => ⟨S256, .f32⟩
  | .hbm, ⟨9, _⟩ => ⟨S256, .f32⟩
  | .hbm, ⟨10, _⟩ => ⟨S256, .f32⟩
  | .hbm, ⟨11, _⟩ => ⟨S256, .f32⟩
  | .hbm, ⟨12, _⟩ => ⟨S256, .f32⟩
  | .hbm, ⟨13, _⟩ => ⟨S256x2048, .f32⟩
  | .hbm, ⟨14, _⟩ => ⟨S2048x256, .f32⟩
  | .hbm, ⟨15, _⟩ => ⟨S1x256, .f32⟩
  | .hbm, ⟨16, _⟩ => ⟨S2048x256, .f32⟩
  | .hbm, ⟨17, _⟩ => ⟨S2048x256, .f32⟩
  | .hbm, ⟨18, _⟩ => ⟨S8x2048x1024, .f32⟩
  | .hbm, ⟨19, _⟩ => ⟨S8x1x1x256, .f32⟩
  | .hbm, ⟨20, _⟩ => ⟨S8x1x256, .f32⟩
  | .hbm, ⟨21, _⟩ => ⟨S_, .f32⟩
  | .hbm, ⟨22, _⟩ => ⟨S8x256, .f32⟩
  | .hbm, ⟨23, _⟩ => ⟨S_, .f32⟩
  | .hbm, ⟨24, _⟩ => ⟨S8x256, .f32⟩
  | .hbm, ⟨25, _⟩ => ⟨S8x256, .f32⟩
  | .hbm, ⟨26, _⟩ => ⟨S1x256, .f32⟩
  | .hbm, ⟨27, _⟩ => ⟨S8x256, .f32⟩
  | .hbm, ⟨28, _⟩ => ⟨S8x256, .f32⟩
  | .hbm, ⟨29, _⟩ => ⟨S_, .f32⟩
  | .hbm, ⟨30, _⟩ => ⟨S8x256, .f32⟩
  | .hbm, ⟨31, _⟩ => ⟨S8x256, .f32⟩
  | .hbm, ⟨32, _⟩ => ⟨S8x256x1, .f32⟩
  | .hbm, ⟨33, _⟩ => ⟨S8x256x1024, .f32⟩
  | .hbm, ⟨34, _⟩ => ⟨S8x256x32x32, .f32⟩
  | .local _ .vmem, ⟨0, _⟩ => ⟨S1x2048x1024, .f32⟩
  | .local _ .vmem, ⟨1, _⟩ => ⟨S1x2048x1024, .f32⟩
  | .local _ .vmem, ⟨2, _⟩ => ⟨S2048x256, .f32⟩
  | .local _ .vmem, ⟨3, _⟩ => ⟨S1x1x1x256, .f32⟩
  | .local _ .vmem, ⟨4, _⟩ => ⟨S1x1x1x256, .f32⟩
  | .local _ .vmem, ⟨5, _⟩ => ⟨S1x2048, .f32⟩
  | .local _ .vmem, ⟨6, _⟩ => ⟨S1x256x1, .f32⟩
  | .local _ .vmem, ⟨7, _⟩ => ⟨S1x256x1, .f32⟩
  | .local _ .vmem, ⟨8, _⟩ => ⟨S1x256x1024, .f32⟩
  | .local _ .vmem, ⟨9, _⟩ => ⟨S1x256x1024, .f32⟩
  | _, _ => ⟨S8x2048x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_0 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_7 : BitVec 32 := 0#32
  let v11 : BitVec 1 := Scalar.cmpi .eq arg2 c0_i32_7
  let v12 : BitVec 32 := Scalar.extui v11
  let c0_i32_8 : BitVec 32 := 0#32
  let v13 : BitVec 1 := Scalar.cmpi .ne v12 c0_i32_8
  v13

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 1 → Memref sig .tc .vmem S2048x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, false]

abbrev stage0_2 : Fin 2 → Memref sig .tc .vmem S1x1x1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨2, ![8, 1], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage1_0 : Fin 2 → Memref sig .tc .vmem S1x256x1 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1x256x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

class Facts₀ : Prop where
  bcast_S_S256 : S_.BroadcastsInDim S256 (![] : Fin 0 → Fin S256.rank)
  shapeCasts_S256x2048x1x1_S256x2048 : S256x2048x1x1.ShapeCasts S256x2048
  transposes_S256x2048_S2048x256_1_0 : S256x2048.Transposes [1, 0] S2048x256
  bcast_S256_S1x256_1 : S256.BroadcastsInDim S1x256 (![1] : Fin 1 → Fin S1x256.rank)
  bcast_S1x256_S2048x256_0_1 : S1x256.BroadcastsInDim S2048x256 (![0, 1] : Fin 2 → Fin S2048x256.rank)
  shapeCasts_S8x2048x32x32_S8x2048x1024 : S8x2048x32x32.ShapeCasts S8x2048x1024
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S1x2048x1024 : S1x2048x1024.ShapeCasts S1x2048x1024
  reduces_S1x2048x1024_S1x2048 : S1x2048x1024.Reduces [2] S1x2048
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  shapeCasts_S1x256_S1x1x1x256 : S1x256.ShapeCasts S1x1x1x256
  inb_S1x1x1x256_S1x1x1x256_0_0_0_0 : ∀ a, (![0, 0, 0, 0] : Fin 4 → Nat) a + S1x1x1x256.size a ≤ S1x1x1x256.size a
  h_S1x1x1x256 : 0 < S1x1x1x256.numel
  shapeCasts_S8x1x1x256_S8x1x256 : S8x1x1x256.ShapeCasts S8x1x256
  reducesTo_S8x1x256_S8x256_d1 : S8x1x256.ReducesTo [1] S8x256
  h_S_ : 0 < S_.numel
  bcast_S_S8x256 : S_.BroadcastsInDim S8x256 (![] : Fin 0 → Fin S8x256.rank)
  bcast_S1x256_S8x256_0_1 : S1x256.BroadcastsInDim S8x256 (![0, 1] : Fin 2 → Fin S8x256.rank)
  bcast_S8x256_S8x256x1_0_1 : S8x256.BroadcastsInDim S8x256x1 (![0, 1] : Fin 2 → Fin S8x256x1.rank)
  inb_S1x256x1_S1x256x1_0_0_0 : ∀ a, (![0, 0, 0] : Fin 3 → Nat) a + S1x256x1.size a ≤ S1x256x1.size a
  h_S1x256x1 : 0 < S1x256x1.numel
  shapeCasts_S1x256x1_S1x256x1 : S1x256x1.ShapeCasts S1x256x1
  broadcasts_S1x256x1_S1x256x1024 : S1x256x1.Broadcasts S1x256x1024
  inb_S1x256x1024_S1x256x1024_0_0_0 : ∀ a, (![0, 0, 0] : Fin 3 → Nat) a + S1x256x1024.size a ≤ S1x256x1024.size a
  h_S1x256x1024 : 0 < S1x256x1024.numel
  shapeCasts_S8x256x1024_S8x256x32x32 : S8x256x1024.ShapeCasts S8x256x32x32
  dot_S1x2048_S2048x256_S1x256_1_0_0_1_n_n_wf : DotDims.WF S1x2048 S2048x256 S1x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x1024.size a ≤ S8x2048x1024.size a
  hwx0_0 : ∀ i : grid0.Coords, EltTy.bits .f32 = 32 ∨ (Rect.block (s := S8x2048x1024) S1x2048x1024.size (cc0_transform_0 i) (hinb0_0 i)).WholeWords (EltTy.packing .f32)
  hstage0_1 : ∀ j, (stage0_1 j).IsWhole
  nbuf0_1 : grid0.bufCount reads0_1 false = 1
  hreads0_1 : ∀ i i' : grid0.Coords, (∀ a, reads0_1 a = true → i a = i' a) → cc0_transform_1 i = cc0_transform_1 i'
  hinb0_1 : ∀ (i : grid0.Coords) a, (cc0_transform_1 i a + 1) * S2048x256.size a ≤ S2048x256.size a
  hwx0_1 : ∀ i : grid0.Coords, EltTy.bits .f32 = 32 ∨ (Rect.block (s := S2048x256) S2048x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1x256.size a ≤ S8x1x1x256.size a
  hwx0_2 : ∀ i : grid0.Coords, EltTy.bits .f32 = 32 ∨ (Rect.block (s := S8x1x1x256) S1x1x1x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x256x1.size a ≤ S8x256x1.size a
  hwx1_0 : ∀ i : grid1.Coords, EltTy.bits .f32 = 32 ∨ (Rect.block (s := S8x256x1) S1x256x1.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x256x1024.size a ≤ S8x256x1024.size a
  hwx1_1 : ∀ i : grid1.Coords, EltTy.bits .f32 = 32 ∨ (Rect.block (s := S8x256x1024) S1x256x1024.size (cc1_transform_1 i) (hinb1_1 i)).WholeWords (EltTy.packing .f32)

variable [Facts₀]

def dot_S1x2048_S2048x256_S1x256_1_0_0_1_n_n : DotDims S1x2048 S2048x256 S1x256 where
  lhsContracting := [1]
  rhsContracting := [0]
  lhsNonContracting := [0]
  rhsNonContracting := [1]
  lhsBatch := []
  rhsBatch := []
  wf := dot_S1x2048_S2048x256_S1x256_1_0_0_1_n_n_wf

abbrev win0_0 : Pipeline.Window sig grid0 :=
  Pipeline.Window.ofSpec (Memref.whole main_v11) S1x2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S2048x256.size cc0_transform_1 reads0_1 false false 1 stage0_1 sem0_1
    hrank0 hreads0_1 hinb0_1 nbuf0_1 (Memref.isWhole_whole _) hwx0_1 hstage0_1

abbrev win0_2 : Pipeline.Window sig grid0 :=
  Pipeline.Window.ofSpec (Memref.whole main_v12) S1x1x1x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_v22) S1x256x1.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v23) S1x256x1024.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

class Facts : Prop extends Facts₀ where

variable [Facts]
-- ==== Proof.KDefs.lean ====
/- The fused pooling kernel's pipeline data: what each grid point finds in the windows' staging
   buffers and what it leaves there, and the contents of every buffer of the program at the
   boundaries of @main's three stretches (host operations, the kernel region, host operations).
   Grid point `n` handles sample `n`: its two input windows are the lower and the upper half of the
   2048 channels of one array (the channels-last view of the input), the third and fourth windows
   are the scaled weight and the bias (whole arrays, fetched once), and the output window is the
   sample's [1024, 256] block. The body's one store writes the whole output block. -/
import proofs.«152753_g2000206983220414_pallasbulk_996_14_alg».proof.Proof.Gen.KernelIdeal.Launch
import proofs.«152753_g2000206983220414_pallasbulk_996_14_alg».proof.Proof.Gen.KernelIdeal.Skeleton
import proofs.«152753_g2000206983220414_pallasbulk_996_14_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Region
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole-buffer rectangles the body loads and stores through. -/
abbrev rW : Rect S256x16x128 := Rect.unit (s := S256x16x128) ![0, 0, 0] S256x16x128.size inb_S256x16x128_S256x16x128_0_0_0
abbrev rX : Rect S1x1024x1024 := Rect.unit (s := S1x1024x1024) ![0, 0, 0] S1x1024x1024.size inb_S1x1024x1024_S1x1024x1024_0_0_0
abbrev rB : Rect S1x256 := Rect.unit (s := S1x256) ![0, 0] S1x256.size inb_S1x256_S1x256_0_0
abbrev rO : Rect S1x1024x256 := Rect.unit (s := S1x1024x256) ![0, 0, 0] S1x1024x256.size inb_S1x1024x256_S1x1024x256_0_0_0

/-- The output window's staging buffer after the body, from the four input blocks: the one store's
    payload over the whole block. -/
def out0_4 (x0 x1 : Vec F S1x1024x1024 .f32) (x2 : Vec F S256x16x128 .f32) (x3 : Vec F S1x256 .f32) : Vec F S1x1024x256 .f32 :=
  View.canon [⟨rO, k0_pay1 (View.ld x2 rW) (View.ld x0 rX) (View.ld x1 rX) (View.ld x3 rB)⟩]

/-- The store covers the output block. -/
theorem cover0_4 (p0 : Vec F S1x1024x256 .f32) (y : S1x1024x256.Idx) :
    ∃ pc ∈ ([⟨rO, p0⟩] : List (View.Piece (Elt F) S1x1024x256 .f32)), y ∈ pc.1.set :=
  View.cover_of_tiled [⟨rO, p0⟩] S1x1024x256.size (by rfl) y

/-- The pipeline's proof data on core `c`: the arrays as the region finds them; after the body each
    input window's buffer still at its block and the output's at `out0_4` of the input blocks. The
    two windows on the channels-last input each hold half of that array's share. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t) (iblk0 V c 3 t)
  Φ _ := Pipeline.ΦA spec0 c
  q w := match w with
    | ⟨0, _⟩ => fullShare.left
    | ⟨1, _⟩ => fullShare.right
    | ⟨2, _⟩ => fullShare
    | ⟨3, _⟩ => fullShare
    | ⟨4, _⟩ => fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) :
    (dat0 V c).after 4 t = out0_4 (iblk0 V c 0 t) (iblk0 V c 1 t) (iblk0 V c 2 t) (iblk0 V c 3 t) := by dsimp only [dat0]

end Region

/-! ## The buffer contents at the boundaries of @main's stretches -/

/-- Core `c`'s buffers at launch. -/
abbrev W0 : Dev nD → Valuation τ sig (Elt F) := fun c b => (s₀ m ρ).mem ((c : Dev nD), b)
/-- After the host operations before the region (the region's entry). -/
abbrev W1 : Dev nD → Valuation τ sig (Elt F) := fun c => StableHlo.after hostOps0 (W0 m ρ c)
/-- The same read at the TensorCore's references. -/
abbrev V1 : (c : Dev nD) → (b : Ref sig .tc) → Buf (Elt F) ((c : Thread nD τ).loc b) := fun c b => W1 m ρ c b
/-- At the region's exit: the output array at what the write-backs leave, every other buffer as entered
    (the input windows' arrays are never written). -/
def W2 (c : Dev nD) : Valuation τ sig (Elt F) :=
  Function.update (W1 m ρ c) (Proc.devRef .tc main_v15) ((dat0 (V1 m ρ) c).arrAt 4 cfg0.N)
/-- The same read at the TensorCore's references. -/
abbrev V2 : (c : Dev nD) → (b : Ref sig .tc) → Buf (Elt F) ((c : Thread nD τ).loc b) := fun c b => W2 m ρ c b
/-- After the host operations that follow the region. -/
abbrev W3 : Dev nD → Valuation τ sig (Elt F) := fun c => StableHlo.after hostOps1 (W2 m ρ c)

theorem W2_out (c : Dev nD) : W2 m ρ c (Proc.devRef .tc main_v15) = (dat0 (V1 m ρ) c).arrAt 4 cfg0.N := by
  unfold W2; exact Function.update_self ..
theorem W2_of_ne (c : Dev nD) (b : Ref sig .tc) (hb : b ≠ main_v15) :
    W2 m ρ c (Proc.devRef .tc b) = W1 m ρ c (Proc.devRef .tc b) := by
  unfold W2; exact Function.update_of_ne (StableHlo.devRef_ne_of_ne hb) ..

end Cert.KernelIdeal.Hand

end
-- ==== Proof.KBody.lean ====
/- The fused pooling kernel's run: the body at every grid point against the pipeline's proof data,
   the kernel region between the two stretches of host operations, and the launch. The region's two
   input windows on the channels-last input share that one array, each holding half of its share:
   at the region's entry the array's full share is split between them, and at its exit — an input
   array is never written, so both halves still hold the entry contents — the halves are joined. -/
import proofs.«152753_g2000206983220414_pallasbulk_996_14_alg».proof.Proof.KDefs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Region
variable (V : (c : Dev nD) → (b : Ref sig .tc) → Buf (Elt F) ((c : Thread nD τ).loc b))

/-! ## Each input window's staging buffer holds its block at every point, fetched there or not -/

theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl) (fun t => by rw [after0_3]; unfold Dat.blockOf iblk0; rw [A_eq0]; try rfl) t d).trans
    (by unfold Dat.fetched Dat.blockOf iblk0; rw [A_eq0]; try rfl)

/-! ## The body's triple -/

set_option maxHeartbeats 1000000 in
/-- The kernel body on whole staging memrefs — the four inputs' at their contents, the output's at
    anything — runs to the continuation holding the inputs' as they were and the output's at
    `out0_4` of the inputs'. -/
theorem sound_kernel0 (c : Dev nD) (E : Set ℕ) (i : grid0.Coords)
    (arg1 : Memref sig .tc .vmem S1x1024x1024 .f32) (harg1 : arg1.IsWhole) (arg2 : Memref sig .tc .vmem S1x1024x1024 .f32) (harg2 : arg2.IsWhole)
    (arg3 : Memref sig .tc .vmem S256x16x128 .f32) (harg3 : arg3.IsWhole) (arg4 : Memref sig .tc .vmem S1x256 .f32) (harg4 : arg4.IsWhole)
    (arg5 : Memref sig .tc .vmem S1x1024x256 .f32) (harg5 : arg5.IsWhole)
    (x0 x1 : Vec F S1x1024x1024 .f32) (x2 : Vec F S256x16x128 .f32) (x3 : Vec F S1x256 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out0_4 x0 x1 x2 x3)) -∗ K ⟨⟩))
      ⊢ wp frame (wpE (defs₀ (F := F)) Variants.none c none) E (cc0__fused_kernel i arg1 harg1 arg2 harg2 arg3 harg3 arg4 harg4 arg5 harg5) K := by
  simp only [cc0__fused_kernel_eq_skeleton]; unfold cc0__fused_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover0_4 _)

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' memrefs hold their blocks, so the body's triple applies; the
    invariant and the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ (grid0.coords t) _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation, at every point. -/
theorem body_obligation0 (c : Dev nD) : BodyObligation (dat0 (F := F) V c) (defs₀ (F := F)) Variants.none () Set.univ := fun t => by
  rw [bigSep_W0, bigSep_W0]
  exact sound_body0 V c t

end Region

end Cert.KernelIdeal.Hand

end
-- ==== Proof.KRun.lean ====
/- The fused pooling kernel's launch: @main as a stretch of host operations, the kernel region and a
   second stretch, every unscoped buffer carried at the boundary's contents. The region's two input
   windows on the channels-last input share that one array, each holding half of its share: at the
   region's entry the array's full share is split between them, and at its exit — an input array is
   never written back, so both halves still hold the entry contents — the halves are joined again.
   The run ends with the result buffer at the last boundary's contents and every argument as launched. -/
import proofs.«152753_g2000206983220414_pallasbulk_996_14_alg».proof.Proof.KBody
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arguments end as launched: no host operation writes one and the region writes only its output array -/

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := StableHlo.after_of_forall_not_mem (b := Proc.devRef .tc main_arg0) _ _ (List.forall_iff_forall_mem.mp (by
          simp only [hostOps1, List.Forall, StableHlo.unary_writes, StableHlo.reshape_writes, Finset.mem_singleton]
          repeat' apply And.intro
          all_goals exact StableHlo.devRef_ne_of_ne (by decide)))
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.Forall, StableHlo.nullary_writes, StableHlo.unary_writes, StableHlo.binary_writes, StableHlo.reshape_writes, Finset.mem_singleton]
          repeat' apply And.intro
          all_goals exact StableHlo.devRef_ne_of_ne (by decide)))
    _ = m ((c : Thread nD τ).loc main_arg0) := rfl
theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := StableHlo.after_of_forall_not_mem (b := Proc.devRef .tc main_arg1) _ _ (List.forall_iff_forall_mem.mp (by
          simp only [hostOps1, List.Forall, StableHlo.unary_writes, StableHlo.reshape_writes, Finset.mem_singleton]
          repeat' apply And.intro
          all_goals exact StableHlo.devRef_ne_of_ne (by decide)))
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.Forall, StableHlo.nullary_writes, StableHlo.unary_writes, StableHlo.binary_writes, StableHlo.reshape_writes, Finset.mem_singleton]
          repeat' apply And.intro
          all_goals exact StableHlo.devRef_ne_of_ne (by decide)))
    _ = m ((c : Thread nD τ).loc main_arg1) := rfl
theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := StableHlo.after_of_forall_not_mem (b := Proc.devRef .tc main_arg2) _ _ (List.forall_iff_forall_mem.mp (by
          simp only [hostOps1, List.Forall, StableHlo.unary_writes, StableHlo.reshape_writes, Finset.mem_singleton]
          repeat' apply And.intro
          all_goals exact StableHlo.devRef_ne_of_ne (by decide)))
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.Forall, StableHlo.nullary_writes, StableHlo.unary_writes, StableHlo.binary_writes, StableHlo.reshape_writes, Finset.mem_singleton]
          repeat' apply And.intro
          all_goals exact StableHlo.devRef_ne_of_ne (by decide)))
    _ = m ((c : Thread nD τ).loc main_arg2) := rfl
theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := StableHlo.after_of_forall_not_mem (b := Proc.devRef .tc main_arg3) _ _ (List.forall_iff_forall_mem.mp (by
          simp only [hostOps1, List.Forall, StableHlo.unary_writes, StableHlo.reshape_writes, Finset.mem_singleton]
          repeat' apply And.intro
          all_goals exact StableHlo.devRef_ne_of_ne (by decide)))
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.Forall, StableHlo.nullary_writes, StableHlo.unary_writes, StableHlo.binary_writes, StableHlo.reshape_writes, Finset.mem_singleton]
          repeat' apply And.intro
          all_goals exact StableHlo.devRef_ne_of_ne (by decide)))
    _ = m ((c : Thread nD τ).loc main_arg3) := rfl
theorem W3_main_arg4 (c : Dev nD) : W3 m ρ c (Proc.devRef .tc main_arg4) = m ((c : Thread nD τ).loc main_arg4) :=
  calc W3 m ρ c (Proc.devRef .tc main_arg4)
    _ = W2 m ρ c (Proc.devRef .tc main_arg4) := StableHlo.after_of_forall_not_mem (b := Proc.devRef .tc main_arg4) _ _ (List.forall_iff_forall_mem.mp (by
          simp only [hostOps1, List.Forall, StableHlo.unary_writes, StableHlo.reshape_writes, Finset.mem_singleton]
          repeat' apply And.intro
          all_goals exact StableHlo.devRef_ne_of_ne (by decide)))
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.Forall, StableHlo.nullary_writes, StableHlo.unary_writes, StableHlo.binary_writes, StableHlo.reshape_writes, Finset.mem_singleton]
          repeat' apply And.intro
          all_goals exact StableHlo.devRef_ne_of_ne (by decide)))
    _ = m ((c : Thread nD τ).loc main_arg4) := rfl
theorem W3_main_arg5 (c : Dev nD) : W3 m ρ c (Proc.devRef .tc main_arg5) = m ((c : Thread nD τ).loc main_arg5) :=
  calc W3 m ρ c (Proc.devRef .tc main_arg5)
    _ = W2 m ρ c (Proc.devRef .tc main_arg5) := StableHlo.after_of_forall_not_mem (b := Proc.devRef .tc main_arg5) _ _ (List.forall_iff_forall_mem.mp (by
          simp only [hostOps1, List.Forall, StableHlo.unary_writes, StableHlo.reshape_writes, Finset.mem_singleton]
          repeat' apply And.intro
          all_goals exact StableHlo.devRef_ne_of_ne (by decide)))
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (List.forall_iff_forall_mem.mp (by
          simp only [hostOps0, List.Forall, StableHlo.nullary_writes, StableHlo.unary_writes, StableHlo.binary_writes, StableHlo.reshape_writes, Finset.mem_singleton]
          repeat' apply And.intro
          all_goals exact StableHlo.devRef_ne_of_ne (by decide)))
    _ = m ((c : Thread nD τ).loc main_arg5) := rfl

/-! ## The region's arrays among the unscoped buffers -/

section Arrays
variable (V : (c : Dev nD) → (b : Ref sig .tc) → Buf (Elt F) ((c : Thread nD τ).loc b))

/-- The unscoped buffers at a valuation are the four buffers behind the five windows' arrays and the rest. -/
theorem held_split (c : Dev nD) (W : Valuation τ sig (Elt F)) :
    (StableHlo.held (c : Thread nD τ) (Pipeline.ucRefs τ sig) W : sProp 𝕄)
      = iprop(Pipeline.arrBufs spec0 c (fun b => W b) ∗ Pipeline.unscopedRest spec0 c (fun b => W b)) := by
  rw [← Pipeline.unscopedBufs_held c W]
  exact Pipeline.unscopedBufs_split₀ cfgs (0 : Fin 1) winFacts₀0.arr_unscoped c (fun b => W b)

/-- The four buffers behind the windows' arrays, one by one. -/
theorem arrBufs_list (c : Dev nD) (Vc : (b : Ref sig .tc) → Buf (Elt F) ((c : Thread nD τ).loc b)) :
    (Pipeline.arrBufs spec0 c Vc : sProp 𝕄)
      = iprop((((c : Thread nD τ).loc main_v14) ↦{fullShare} Vc main_v14) ∗ (((c : Thread nD τ).loc main_v12) ↦{fullShare} Vc main_v12)
          ∗ (((c : Thread nD τ).loc main_v6) ↦{fullShare} Vc main_v6) ∗ (((c : Thread nD τ).loc main_v15) ↦{fullShare} Vc main_v15)) := by
  unfold Pipeline.arrBufs
  exact bigSep_eq_bigSepL_of_eq [main_v14, main_v12, main_v6, main_v15] (by decide) (by decide) _

/-- The proof data's arrays, window by window: the channels-last input twice, at the two halves of its share. -/
theorem arrays_list (c : Dev nD) (Fa : (w : Fin cfg0.W) → Buf (Elt F) ((cfg0.win w).arr.view.loc (c : Thread nD τ))) :
    ((dat0 V c).arrays Fa : sProp 𝕄)
      = iprop((((c : Thread nD τ).loc main_v14) ↦{fullShare.left} Fa 0) ∗ (((c : Thread nD τ).loc main_v14) ↦{fullShare.right} Fa 1)
          ∗ (((c : Thread nD τ).loc main_v12) ↦{fullShare} Fa 2) ∗ (((c : Thread nD τ).loc main_v6) ↦{fullShare} Fa 3)
          ∗ (((c : Thread nD τ).loc main_v15) ↦{fullShare} Fa 4)) := by
  unfold Dat.arrays
  rw [bigSep_W0]
  have e0 : (cfg0.win 0).arr.view.set = Finset.univ := (arr_whole0 0).set_eq_univ
  have e2 : (cfg0.win 2).arr.view.set = Finset.univ := (arr_whole0 2).set_eq_univ
  have e3 : (cfg0.win 3).arr.view.set = Finset.univ := (arr_whole0 3).set_eq_univ
  have e4 : (cfg0.win 4).arr.view.set = Finset.univ := (arr_whole0 4).set_eq_univ
  have s0 : (dat0 V c).share 0 = fullShare.left := by unfold Dat.share; rfl
  have s1 : (dat0 V c).share 1 = fullShare.right := by unfold Dat.share; rfl
  have s2 : (dat0 V c).share 2 = fullShare := by unfold Dat.share; rfl
  have s3 : (dat0 V c).share 3 = fullShare := by unfold Dat.share; rfl
  have s4 : (dat0 V c).share 4 = fullShare := by unfold Dat.share; rfl
  rw [e0, e2, e3, e4, s0, s1, s2, s3, s4]

/-- No input window is ever written back. -/
theorem noflush0_0 : ∀ t : Fin cfg0.N, (cfg0.win 0).flush t = false := (by decide +kernel : ∀ t : Fin grid0.N, win0_0.flush t = false)
theorem noflush0_1 : ∀ t : Fin cfg0.N, (cfg0.win 1).flush t = false := (by decide +kernel : ∀ t : Fin grid0.N, win0_1.flush t = false)
theorem noflush0_2 : ∀ t : Fin cfg0.N, (cfg0.win 2).flush t = false := (by decide +kernel : ∀ t : Fin grid0.N, win0_2.flush t = false)
theorem noflush0_3 : ∀ t : Fin cfg0.N, (cfg0.win 3).flush t = false := (by decide +kernel : ∀ t : Fin grid0.N, win0_3.flush t = false)

/-- So an input window's array holds its entry contents after any number of points. -/
theorem arrAt_in (c : Dev nD) (w : Fin cfg0.W) (hw : ∀ t : Fin cfg0.N, (cfg0.win w).flush t = false) (n : ℕ) :
    (dat0 V c).arrAt w n = V c (Pipeline.arrRef spec0 w) :=
  funext fun i => ((dat0 V c).arrAt_apply_of_forall_not_mem w n i
    (fun t _ hf => absurd hf (by rw [hw t]; exact Bool.false_ne_true))).trans (congrFun (A_eq0 V c w) i)

end Arrays

/-- Off the output array the exit contents are the entry contents: so are the buffers no window names. -/
theorem rest_exit (c : Dev nD) :
    (Pipeline.unscopedRest (Ix := Unit) (Name := ℕ) (U := UR sig nD τ) (Lvl := ℕ) spec0 c (V2 m ρ c) : sProp 𝕄)
      = Pipeline.unscopedRest spec0 c (V1 m ρ c) := by
  unfold Pipeline.unscopedRest
  exact bigSep_congr fun b hb => by
    rw [show V2 m ρ c b = V1 m ρ c b from W2_of_ne m ρ c b fun e =>
      (Finset.mem_sdiff.mp hb).2 (Finset.mem_image.mpr ⟨4, Finset.mem_univ _, e.symm⟩)]

/-! ## The proof data family and the thread state -/

/-- The prefetched tables' admissible contents: the pipeline has no table. -/
abbrev adm : (p : Fin 1) → (pcfgs (F := F) p).Adm := fun p => (cfgs p).toPCfg_adm
/-- The one pipeline's proof data, at the region's entry contents. -/
def pdats : (p : Fin 1) → (c : Dev nD) → Dat τ (Elt F) Unit ℕ (UR sig nD τ) ℕ (Pipeline.pin (pcfgs (F := F)) adm p) c
  | ⟨0, _⟩ => fun c => dat0 (V1 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core's
    `owes`, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No host operation allocates a buffer. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents, the generator
    register at some state. -/
abbrev Tₙ (c : Dev nD) : sProp 𝕄 := iprop(StableHlo.held (c : Thread nD τ) (Pipeline.ucRefs τ sig) (W3 m ρ c) ∗ ∃ r, prngReg c r)

/-! ## The region as a segment -/

set_option backward.isDefEq.respectTransparency.types false in
/-- The kernel region over the thread state: entered from every unscoped buffer at `W1`, left at `W2`. At the
    entry the four buffers behind the windows' arrays are taken out of the unscoped buffers and the
    channels-last input's share is halved between its two windows; at the exit the halves — both still at
    the entry contents — are joined and the buffers put back, the output array at what the write-backs left. -/
def reg0 : Pipeline.RegionSeg (pcfgs (F := F)) adm (pdats m ρ) () defs₀ 𝒱₀ L lv 0 where
  win := winFacts₀0
  block_pos := block_pos0
  stage_whole := stage_whole0
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none, held_split, arrBufs_list]
    rw [show (pdats m ρ 0 c).arrays ((pdats m ρ 0 c).arrAt · 0) = (dat0 (V1 m ρ) c).arrays ((dat0 (V1 m ρ) c).arrAt · 0) from rfl, arrays_list]
    iintro ⟨⟨⟨⟨Hx, Hw, Hb, Ho⟩, Hrest⟩, Hp, HO⟩, -, -⟩
    ihave Hx2 := (pointsTo_share (PosShare.mem_left_op_right fullShare)).1 $$ Hx
    icases Hx2 with ⟨Hxl, Hxr⟩
    imodintro
    isplitl [Hxl Hxr Hw Hb Ho]
    · isplitl [Hxl]; · iexact Hxl
      isplitl [Hxr]; · iexact Hxr
      isplitl [Hw]; · iexact Hw
      isplitl [Hb]; · iexact Hb
      iexact Ho
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    rw [held_split, arrBufs_list, rest_exit]
    rw [show (pdats m ρ 0 c).arrays ((pdats m ρ 0 c).arrAt · (Pipeline.pin (pcfgs (F := F)) adm 0).N)
        = (dat0 (V1 m ρ) c).arrays ((dat0 (V1 m ρ) c).arrAt · cfg0.N) from rfl, arrays_list]
    rw [arrAt_in (V1 m ρ) c 0 noflush0_0, arrAt_in (V1 m ρ) c 1 noflush0_1, arrAt_in (V1 m ρ) c 2 noflush0_2, arrAt_in (V1 m ρ) c 3 noflush0_3]
    rw [W2_of_ne m ρ c main_v14 (by decide), W2_of_ne m ρ c main_v12 (by decide), W2_of_ne m ρ c main_v6 (by decide), W2_out m ρ c]
    iintro ⟨⟨Hxl, Hxr, Hw, Hb, Ho⟩, HO, HY, Hrest⟩
    ihave Hx := (pointsTo_share (PosShare.mem_left_op_right fullShare)).2 $$ [Hxl Hxr]
    · isplitl [Hxl]; · iexact Hxl
      iexact Hxr
    imodintro
    isplitl [Hx Hw Hb Ho Hrest]
    · isplitl [Hx Hw Hb Ho]
      · isplitl [Hx]; · iexact Hx
        isplitl [Hw]; · iexact Hw
        isplitl [Hb]; · iexact Hb
        iexact Ho
      iexact Hrest
    isplitl [HY]; · iexact HY
    unfold Pipeline.Dat.owesAt Pipeline.owesWithin
    icases HO with ⟨%W, -, HO⟩; iexists W; iexact HO

/-! ## @main as segments, and the launch -/

/-- @main's three segments in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)) ]
/-- @main is the run of the segments. -/
theorem main_run (c : Dev nD) : main (F := F) c = Pipeline.Seg.run (segs m ρ) := (main_chain c).trans (by chain_rfl)

set_option backward.isDefEq.respectTransparency.types false in
/-- The run: at the compiled mesh, from any memory with zero counters, every weakly fair execution of @main on the
    TensorCores terminates, nothing faulting, and every final state has the result buffer at the last boundary's
    contents and the argument arrays as launched. -/
theorem run_main : θ_run defs (onTc (τ := τ) (main (F := F))) ⟨m, fun _ => 0, ρ⟩ (fun r => ∀ c : Dev nD,
      r.2.mem ((c.tc : Thread nD τ).loc main_v17) = W3 m ρ c (Proc.devRef .tc main_v17)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v17 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c),
       (h c _ (mem_uc main_arg5 (by decide))).trans (W3_main_arg5 m ρ c)⟩)

/-- The frame: the run with the result forgotten. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => (h c).2) (run_main m ρ)

end Cert.KernelIdeal.Hand

end
-- ==== Proof.Spec.lean ====
/- The common specification of the pooled 1×1 convolution: both programs compute, for a sample `n`
   and an output channel `co`, the value `max (Σ_c pool(n,c) · w(co,c) · s(co) · k + b(co), 0)`,
   where `pool(n,c)` is the sum of the input over the 32×32 spatial positions, `s` the folded
   batch-norm scale, `b` the folded bias and `k = 2⁻¹⁰` the reciprocal of the pooled area.
   The kernel folds `k` into the weights and splits the channel sum in two halves; the reference
   multiplies the whole sum by `k` afterwards. The two agree on the extended reals because
   multiplication is associative and commutative there and a non-negative finite factor
   distributes over any extended-real sum. -/
import Idealize.ShloMosaic.PureOps.Ideal
import Idealize.ShloMosaic.Lib.ValueIdx
import Mathlib.Data.EReal.Operations
import Mathlib.Algebra.BigOperators.Fin

noncomputable section

open scoped BigOperators

namespace Cert.Spec

open Idealize.ShloMosaic Idealize.ShloMosaic.ValueIdx

/-- The input, weight, per-channel and output shapes. -/
abbrev SX : Shape := ⟨4, ![8, 2048, 32, 32]⟩
abbrev SW : Shape := ⟨4, ![256, 2048, 1, 1]⟩
abbrev SC : Shape := ⟨1, ![256]⟩

/-- Spatial position `p` of the flattened 32×32 plane, as the pair (row, column). -/
abbrev hOf (p : Fin 1024) : Fin 32 := ⟨p.val / 32, by have := p.isLt; omega⟩
abbrev wOf (p : Fin 1024) : Fin 32 := ⟨p.val % 32, by omega⟩

/-- Channel `c` of the lower half and of the upper half of the 2048 input channels. -/
abbrev lo (c : Fin 1024) : Fin 2048 := ⟨c.val, by have := c.isLt; omega⟩
abbrev hi (c : Fin 1024) : Fin 2048 := ⟨1024 + c.val, by have := c.isLt; omega⟩

/-- Channel `c` as the pair (tile, lane) of the weight's [256, 16, 128] view. -/
abbrev d16 (c : Fin 2048) : Fin 16 := ⟨c.val / 128, by have := c.isLt; omega⟩
abbrev m128 (c : Fin 2048) : Fin 128 := ⟨c.val % 128, by omega⟩

/-- The pooled sum of sample `n`, channel `c`: the input summed over the spatial plane. -/
def pool (x : SX.Idx → EReal) (n : Fin 8) (c : Fin 2048) : EReal :=
  ∑ p : Fin 1024, x (ix4 n c (hOf p) (wOf p))

/-- The reciprocal of the pooled area, `2⁻¹⁰`, as the float literal both programs carry. -/
def kconst : EReal := Ideal.ofBits .f32 0x3A800000#32

/-- The float zero both programs clamp against. -/
def zconst : EReal := Ideal.ofBits .f32 0x00000000#32

/-- The kernel's arrangement: `k` folded into the weight, the channel sum in two halves. -/
def kerOut (x : SX.Idx → EReal) (w : SW.Idx → EReal) (s b : SC.Idx → EReal) (n : Fin 8) (co : Fin 256) : EReal :=
  max (((∑ c : Fin 1024, pool x n (lo c) * (w (ix4 co (lo c) 0 0) * (s (ix1 co) * kconst)))
        + (∑ c : Fin 1024, pool x n (hi c) * (w (ix4 co (hi c) 0 0) * (s (ix1 co) * kconst))))
      + b (ix1 co)) zconst

/-- The reference's arrangement: one channel sum, scaled by `k` afterwards. -/
def refOut (x : SX.Idx → EReal) (w : SW.Idx → EReal) (s b : SC.Idx → EReal) (n : Fin 8) (co : Fin 256) : EReal :=
  max ((∑ c : Fin 2048, pool x n c * (w (ix4 co c 0 0) * s (ix1 co))) * kconst + b (ix1 co)) zconst

/-- `k` is a non-negative real: sign bit clear, biased exponent 117, fraction zero. -/
theorem kconst_coe : ∃ r : ℝ, 0 ≤ r ∧ kconst = (r : EReal) := by
  unfold kconst Ideal.ofBits Ideal.ieee
  have h1 : ((0x3A800000#32 : BitVec 32).extractLsb' (8 + 23) 1 == 1#1) = false := by decide
  have h2 : ((0x3A800000#32 : BitVec 32).extractLsb' 23 8).toNat = 117 := by decide
  have h3 : ((0x3A800000#32 : BitVec 32).extractLsb' 0 23).toNat = 0 := by decide
  simp only [h1, h2, h3]
  norm_num

theorem kconst_nonneg : 0 ≤ kconst := by
  obtain ⟨r, hr, e⟩ := kconst_coe
  rw [e]; exact_mod_cast hr

theorem kconst_ne_top : kconst ≠ ⊤ := by
  obtain ⟨r, _, e⟩ := kconst_coe
  rw [e]; exact EReal.coe_ne_top r

/-- A non-negative finite factor distributes over a finite extended-real sum. -/
theorem sum_mul_of_nonneg {ι : Type} (S : Finset ι) (f : ι → EReal) {k : EReal} (hk : 0 ≤ k) (hk' : k ≠ ⊤) :
    (∑ i ∈ S, f i) * k = ∑ i ∈ S, f i * k := by
  classical
  induction S using Finset.induction_on with
  | empty => simp
  | insert a S ha ih =>
    rw [Finset.sum_insert ha, Finset.sum_insert ha, EReal.right_distrib_of_nonneg_of_ne_top hk hk', ih]

/-- The sum over all 2048 channels is the sum over the lower half plus the sum over the upper half. -/
theorem sum_halves (f : Fin 2048 → EReal) : (∑ c : Fin 2048, f c) = (∑ c : Fin 1024, f (lo c)) + ∑ c : Fin 1024, f (hi c) := by
  have h := Fin.sum_univ_add (M := EReal) (a := 1024) (b := 1024) f
  rw [h]
  congr 1

/-- The two arrangements agree. -/
theorem kerOut_eq_refOut (x : SX.Idx → EReal) (w : SW.Idx → EReal) (s b : SC.Idx → EReal) (n : Fin 8) (co : Fin 256) :
    kerOut x w s b n co = refOut x w s b n co := by
  unfold kerOut refOut
  rw [sum_mul_of_nonneg _ _ kconst_nonneg kconst_ne_top, sum_halves]
  congr 3
  · exact Finset.sum_congr rfl fun c _ => by rw [mul_assoc, mul_assoc]
  · exact Finset.sum_congr rfl fun c _ => by rw [mul_assoc, mul_assoc]

end Cert.Spec

end
-- ==== Proof.KRegion.lean ====
/- The value the fused kernel leaves in its output array: for sample `n`, every spatial row `p` and
   output channel `co`, the clamped sum of the two half-channel products plus the bias. -/
import proofs.«152753_g2000206983220414_pallasbulk_996_14_alg».proof.Proof.KDefs
import proofs.«152753_g2000206983220414_pallasbulk_996_14_alg».proof.Proof.Spec
import Idealize.ShloMosaic.Lib.ValueIdx
import Idealize.ShloMosaic.Lib.ValueLayout
import Idealize.ShloMosaic.Lib.Pipeline.Value
import Idealize.ShloMosaic.Lib.StableHlo.Run
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL Idealize.SL.Sem
open Cert.Spec (lo hi d16 m128 hOf wOf)

/-! ## The body's arithmetic at one output element

The body's one stored value is built from: the sublane sums of the two [1024, 1024] input blocks (one
pooled value per channel of each half), the weight block flattened from [256, 16, 128] to [256, 2048]
and cut at columns 0 and 1024, one product per half contracting the channel axis of both operands, the
sum of the two, the bias row, and the clamp at zero; the row is then repeated over the 1024 spatial rows. -/

/-- The zero offsets of a whole-block rectangle, at rank 3 and rank 2. -/
theorem hz3 : (![0, 0, 0] : Fin 3 → Nat) = fun _ => 0 := funext fun a => by fin_cases a <;> rfl
theorem hz2 : (![0, 0] : Fin 2 → Nat) = fun _ => 0 := funext fun a => by fin_cases a <;> rfl

/-- The product's left operand index at output index `j` and contraction position `k`: row `j 0`, … -/
theorem lhs_dot_0 (j : S1x256.Idx) (k : dot_S1x1024_S256x1024_S1x256_1_1_0_0_n_n.contr.Idx) :
    (dot_S1x1024_S256x1024_S1x256_1_1_0_0_n_n.lhsIdx j k 0 : ℕ) = j 0 := by
  have hj : (j 0).val < 1 := (j 0).isLt
  have hl : (dot_S1x1024_S256x1024_S1x256_1_1_0_0_n_n.lhsIdx j k 0).val < 1 := (dot_S1x1024_S256x1024_S1x256_1_1_0_0_n_n.lhsIdx j k 0).isLt
  omega
/-- … column the contraction position; -/
theorem lhs_dot_1 (j : S1x256.Idx) (k : dot_S1x1024_S256x1024_S1x256_1_1_0_0_n_n.contr.Idx) :
    (dot_S1x1024_S256x1024_S1x256_1_1_0_0_n_n.lhsIdx j k 1 : ℕ) = k ⟨0, by decide⟩ := by
  simp [DotDims.lhsIdx, dot_S1x1024_S256x1024_S1x256_1_1_0_0_n_n]; rfl
/-- the right operand's: row the output column `j 1`, … -/
theorem rhs_dot_0 (j : S1x256.Idx) (k : dot_S1x1024_S256x1024_S1x256_1_1_0_0_n_n.contr.Idx) :
    (dot_S1x1024_S256x1024_S1x256_1_1_0_0_n_n.rhsIdx j k 0 : ℕ) = j 1 := by
  simp [DotDims.rhsIdx, dot_S1x1024_S256x1024_S1x256_1_1_0_0_n_n]; rfl
/-- … column the contraction position. -/
theorem rhs_dot_1 (j : S1x256.Idx) (k : dot_S1x1024_S256x1024_S1x256_1_1_0_0_n_n.contr.Idx) :
    (dot_S1x1024_S256x1024_S1x256_1_1_0_0_n_n.rhsIdx j k 1 : ℕ) = k ⟨0, by decide⟩ := by
  simp [DotDims.rhsIdx, dot_S1x1024_S256x1024_S1x256_1_1_0_0_n_n]; rfl

/-- A [1, 1024] row times a [256, 1024] matrix contracted over the 1024 columns of both, into the zero
    accumulator: output column `co` is the sum over the columns `cc` of the row's entry times the
    matrix's entry in row `co`. -/
theorem matmul_row_apply (l : FVec Ideal S1x1024 .f32) (r : FVec Ideal S256x1024 .f32) (co : Fin 256) :
    matmul dot_S1x1024_S256x1024_S1x256_1_1_0_0_n_n none l r (constant (F := Ideal) S1x256 .f32 0x00000000#32) (ix2 (0 : Fin 1) co)
      = ∑ cc : Fin 1024, l (ix2 (0 : Fin 1) cc) * r (ix2 co cc) := by
  refine (Ideal.matmul_constant_zero_apply dot_S1x1024_S256x1024_S1x256_1_1_0_0_n_n none l r (ix2 (0 : Fin 1) co)).trans ?_
  rw [← Equiv.sum_comp (contrEquiv1 dot_S1x1024_S256x1024_S1x256_1_1_0_0_n_n 1024 rfl rfl).symm]
  refine Finset.sum_congr rfl fun cc _ => ?_
  have hk := contrEquiv1_symm_val dot_S1x1024_S256x1024_S1x256_1_1_0_0_n_n 1024 rfl rfl cc
  have el : dot_S1x1024_S256x1024_S1x256_1_1_0_0_n_n.lhsIdx (ix2 (0 : Fin 1) co)
      ((contrEquiv1 dot_S1x1024_S256x1024_S1x256_1_1_0_0_n_n 1024 rfl rfl).symm cc) = ix2 (0 : Fin 1) cc := by
    funext a; apply Fin.ext
    match a with
    | ⟨0, _⟩ => exact lhs_dot_0 _ _
    | ⟨1, _⟩ => exact (lhs_dot_1 _ _).trans hk
  have er : dot_S1x1024_S256x1024_S1x256_1_1_0_0_n_n.rhsIdx (ix2 (0 : Fin 1) co)
      ((contrEquiv1 dot_S1x1024_S256x1024_S1x256_1_1_0_0_n_n 1024 rfl rfl).symm cc) = ix2 co cc := by
    funext a; apply Fin.ext
    match a with
    | ⟨0, _⟩ => exact rhs_dot_0 _ _
    | ⟨1, _⟩ => exact (rhs_dot_1 _ _).trans hk
  rw [el, er]

/-- The sublane sum of a [1024, 1024] block at channel `cc`: the sum over the 1024 rows of column `cc`. -/
theorem colsum_apply (x : FVec Ideal S1024x1024 .f32) (cc : Fin 1024) :
    multiReduction (F := Ideal) .add [0] S1024 x 0x00000000#32 reduces_S1024x1024_S1024 (.inl rfl) rfl (ix1 cc)
      = ∑ q : Fin 1024, x (ix2 q cc) := by
  refine (Ideal.multiReduction_add_single x 0x00000000#32 reduces_S1024x1024_S1024 (.inl rfl) rfl (ix1 cc)).trans ?_
  refine Finset.sum_congr rfl fun q _ => congrArg x ?_
  funext a; apply Fin.ext
  match a with
  | ⟨0, _⟩ => rfl
  | ⟨1, _⟩ => rfl

/-- The weight block flattened to [256, 2048]: channel `ch` of row `co` is tile `ch / 128`, lane `ch % 128`. -/
theorem wflat_apply {α : Type} (x : S256x16x128.Idx → α) (co : Fin 256) (ch : Fin 2048) :
    shapeCast S256x2048 x shapeCasts_S256x16x128_S256x2048 (ix2 co ch) = x (ix3 co (d16 ch) (m128 ch)) := by
  refine shapeCast_apply x _ _ _ ?_
  rw [Shape.rowMajor_val_three, Shape.rowMajor_val_two]
  show (co.val * 16 + ch.val / 128) * 128 + ch.val % 128 = co.val * 2048 + ch.val
  omega

/-- THE BODY'S STORED VALUE AT (0, p, co), over any four loaded blocks: the row does not depend on `p`;
    each half's product pairs the pooled value of channel `cc` of its input block with the weight's
    channel `cc` (lower half) or `1024 + cc` (upper half) of output row `co`. -/
theorem payload_apply (x2 : Vec Ideal S256x16x128 .f32) (x0 x1 : Vec Ideal S1x1024x1024 .f32) (x3 : Vec Ideal S1x256 .f32)
    (p : Fin 1024) (co : Fin 256) :
    k0_pay1 x2 x0 x1 x3 (ix3 (0 : Fin 1) p co)
      = max (((∑ cc : Fin 1024, (∑ q : Fin 1024, x0 (ix3 (0 : Fin 1) q cc)) * x2 (ix3 co (d16 (lo cc)) (m128 (lo cc))))
              + (∑ cc : Fin 1024, (∑ q : Fin 1024, x1 (ix3 (0 : Fin 1) q cc)) * x2 (ix3 co (d16 (hi cc)) (m128 (hi cc)))))
            + x3 (ix2 (0 : Fin 1) co)) Cert.Spec.zconst := by
  unfold k0_pay1
  refine (shapeCast_ab_1ab_apply _ _ (0 : Fin 1) p co).trans ?_
  refine (broadcastTo_1b_ab_apply _ _ p co).trans ?_
  simp only [shapeCast_self]
  refine (maximumf_apply _ _ (ix2 (0 : Fin 1) co)).trans ?_
  refine congrArg₂ max ?_ rfl
  refine (addf_apply _ _ (ix2 (0 : Fin 1) co)).trans ?_
  refine congrArg₂ (· + ·) ?_ rfl
  refine (addf_apply _ _ (ix2 (0 : Fin 1) co)).trans ?_
  refine congrArg₂ (· + ·) ?_ ?_
  · refine (matmul_row_apply _ _ co).trans ?_
    refine Finset.sum_congr rfl fun cc _ => congrArg₂ (· * ·) ?_ ?_
    · refine (shapeCast_a_1a_apply _ _ (0 : Fin 1) cc).trans ?_
      refine (colsum_apply _ cc).trans ?_
      exact Finset.sum_congr rfl fun q _ => shapeCast_1ab_ab_apply _ _ q cc
    · refine (slice2_axis1_apply 0 _ _ co cc (lo cc) (by show cc.val = 0 + cc.val; omega)).trans ?_
      exact wflat_apply _ co (lo cc)
  · refine (matmul_row_apply _ _ co).trans ?_
    refine Finset.sum_congr rfl fun cc _ => congrArg₂ (· * ·) ?_ ?_
    · refine (shapeCast_a_1a_apply _ _ (0 : Fin 1) cc).trans ?_
      refine (colsum_apply _ cc).trans ?_
      exact Finset.sum_congr rfl fun q _ => shapeCast_1ab_ab_apply _ _ q cc
    · refine (slice2_axis1_apply 1024 _ _ co cc (hi cc) (by show 1024 + cc.val = 1024 + cc.val; rfl)).trans ?_
      exact wflat_apply _ co (hi cc)

/-! ## The region's result as one function of the arrays -/

/-- Sample `n`, output channel `co` of the result over any input, weight and bias arrays: the two
    half-channel sums of (pooled input × weight), plus the bias, clamped at zero. -/
def outAt (x : S8x1024x2048.Idx → EReal) (w : S256x16x128.Idx → EReal) (b : S1x256.Idx → EReal) (n : Fin 8) (co : Fin 256) : EReal :=
  max (((∑ cc : Fin 1024, (∑ q : Fin 1024, x (ix3 n q (lo cc))) * w (ix3 co (d16 (lo cc)) (m128 (lo cc))))
        + (∑ cc : Fin 1024, (∑ q : Fin 1024, x (ix3 n q (hi cc))) * w (ix3 co (d16 (hi cc)) (m128 (hi cc)))))
      + b (ix2 (0 : Fin 1) co)) Cert.Spec.zconst

/-- The whole [8, 1024, 256] result: element (n, p, co) is `outAt … n co`, the same for every spatial row `p`. -/
def outArr (x : S8x1024x2048.Idx → EReal) (w : S256x16x128.Idx → EReal) (b : S1x256.Idx → EReal) : S8x1024x256.Idx → EReal :=
  fun i => outAt x w b ⟨(i 0).val, (i 0).isLt⟩ ⟨(i 2).val, (i 2).isLt⟩

/-- The printed index maps, decided once over the eight grid points: point `t` reads block (t, 0, 0) and
    block (t, 0, 1) of the input (its lower and upper channel halves), the whole weight and bias, and
    writes block (t, 0, 0) of the output. -/
theorem index_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 1
    ∧ win0_2.index t (0 : Fin 3) = 0 ∧ win0_2.index t (1 : Fin 3) = 0 ∧ win0_2.index t (2 : Fin 3) = 0
    ∧ win0_3.index t (0 : Fin 2) = 0 ∧ win0_3.index t (1 : Fin 2) = 0
    ∧ win0_4.index t (0 : Fin 3) = t.val ∧ win0_4.index t (1 : Fin 3) = 0 ∧ win0_4.index t (2 : Fin 3) = 0 :=
  (by decide +kernel : ∀ t : Fin grid0.N, _)

variable (V : (c : Dev nD) → (b : Ref sig .tc) → Buf (Elt Ideal) ((c : Thread nD τ).loc b))

/-- The region's arrays read as extended-real arrays of their literal shapes: the channels-last input,
    the scaled weight in its [256, 16, 128] view, the bias row, and the output after the region. -/
abbrev xarr (c : Dev nD) : S8x1024x2048.Idx → EReal := V c main_v14
abbrev warr (c : Dev nD) : S256x16x128.Idx → EReal := V c main_v12
abbrev barr (c : Dev nD) : S1x256.Idx → EReal := V c main_v6
abbrev oarr (c : Dev nD) : S8x1024x256.Idx → EReal := (dat0 V c).arrAt 4 cfg0.N

/-- The four input blocks at point `t`, at their literal shapes. -/
abbrev xblkLo (c : Dev nD) (t : Fin cfg0.N) : Vec Ideal S1x1024x1024 .f32 := iblk0 V c 0 t
abbrev xblkHi (c : Dev nD) (t : Fin cfg0.N) : Vec Ideal S1x1024x1024 .f32 := iblk0 V c 1 t
abbrev wblk (c : Dev nD) (t : Fin cfg0.N) : Vec Ideal S256x16x128 .f32 := iblk0 V c 2 t
abbrev bblk (c : Dev nD) (t : Fin cfg0.N) : Vec Ideal S1x256 .f32 := iblk0 V c 3 t

/-- The lower-half input block at point `t`: row `q`, channel `cc` of sample `t`. -/
theorem xblkLo_apply (c : Dev nD) (t : Fin cfg0.N) (n : Fin 8) (hn : t.val = n.val) (q cc : Fin 1024) :
    xblkLo V c t (ix3 (0 : Fin 1) q cc) = xarr V c (ix3 n q (lo cc)) := by
  obtain ⟨e0, e1, e2, -⟩ := index_facts t
  show iblk0 V c 0 t (ix3 (0 : Fin 1) q cc) = V c main_v14 (ix3 n q (lo cc))
  unfold iblk0
  rw [View.read_apply]
  show V c main_v14 _ = V c main_v14 _
  congr 1
  funext a; apply Fin.ext
  match a with
  | ⟨0, _⟩ => show win0_0.index t (0 : Fin 3) * 1 + 1 * 0 = n.val; rw [e0]; omega
  | ⟨1, _⟩ => show win0_0.index t (1 : Fin 3) * 1024 + 1 * q.val = q.val; rw [e1]; omega
  | ⟨2, _⟩ => show win0_0.index t (2 : Fin 3) * 1024 + 1 * cc.val = cc.val; rw [e2]; omega

/-- The upper-half input block at point `t`: row `q`, channel `1024 + cc` of sample `t`. -/
theorem xblkHi_apply (c : Dev nD) (t : Fin cfg0.N) (n : Fin 8) (hn : t.val = n.val) (q cc : Fin 1024) :
    xblkHi V c t (ix3 (0 : Fin 1) q cc) = xarr V c (ix3 n q (hi cc)) := by
  obtain ⟨-, -, -, e0, e1, e2, -⟩ := index_facts t
  show iblk0 V c 1 t (ix3 (0 : Fin 1) q cc) = V c main_v14 (ix3 n q (hi cc))
  unfold iblk0
  rw [View.read_apply]
  show V c main_v14 _ = V c main_v14 _
  congr 1
  funext a; apply Fin.ext
  match a with
  | ⟨0, _⟩ => show win0_1.index t (0 : Fin 3) * 1 + 1 * 0 = n.val; rw [e0]; omega
  | ⟨1, _⟩ => show win0_1.index t (1 : Fin 3) * 1024 + 1 * q.val = q.val; rw [e1]; omega
  | ⟨2, _⟩ => show win0_1.index t (2 : Fin 3) * 1024 + 1 * cc.val = 1024 + cc.val; rw [e2]; omega

/-- The weight block at any point is the whole weight array. -/
theorem wblk_apply (c : Dev nD) (t : Fin cfg0.N) (co : Fin 256) (d : Fin 16) (l : Fin 128) :
    wblk V c t (ix3 co d l) = warr V c (ix3 co d l) := by
  obtain ⟨-, -, -, -, -, -, e0, e1, e2, -⟩ := index_facts t
  show iblk0 V c 2 t (ix3 co d l) = V c main_v12 (ix3 co d l)
  unfold iblk0
  rw [View.read_apply]
  show V c main_v12 _ = V c main_v12 _
  congr 1
  funext a; apply Fin.ext
  match a with
  | ⟨0, _⟩ => show win0_2.index t (0 : Fin 3) * 256 + 1 * co.val = co.val; rw [e0]; omega
  | ⟨1, _⟩ => show win0_2.index t (1 : Fin 3) * 16 + 1 * d.val = d.val; rw [e1]; omega
  | ⟨2, _⟩ => show win0_2.index t (2 : Fin 3) * 128 + 1 * l.val = l.val; rw [e2]; omega

/-- The bias block at any point is the whole bias row. -/
theorem bblk_apply (c : Dev nD) (t : Fin cfg0.N) (co : Fin 256) :
    bblk V c t (ix2 (0 : Fin 1) co) = barr V c (ix2 (0 : Fin 1) co) := by
  obtain ⟨-, -, -, -, -, -, -, -, -, e0, e1, -⟩ := index_facts t
  show iblk0 V c 3 t (ix2 (0 : Fin 1) co) = V c main_v6 (ix2 (0 : Fin 1) co)
  unfold iblk0
  rw [View.read_apply]
  show V c main_v6 _ = V c main_v6 _
  congr 1
  funext a; apply Fin.ext
  match a with
  | ⟨0, _⟩ => show win0_3.index t (0 : Fin 2) * 1 + 1 * 0 = 0; rw [e0]
  | ⟨1, _⟩ => show win0_3.index t (1 : Fin 2) * 256 + 1 * co.val = co.val; rw [e1]; omega

/-- WHAT POINT `t` WRITES BACK is block `t` of `outArr` of the arrays as the region finds them: the body's
    stored value over the point's four blocks, each block read where its window's index map puts it. -/
theorem flushed_eq (c : Dev nD) (t : Fin cfg0.N) :
    (dat0 V c).flushed 4 t = ((cfg0.win 4).blk t).view.read (Elt Ideal) (outArr (xarr V c) (warr V c) (barr V c)) := by
  show (cfg0.win 4).cut (grid0.coords t) ((dat0 V c).after 4 t) = _
  rw [after0_4]
  unfold out0_4
  rw [View.canon_unit_zero hz3]
  simp only [View.ld_unit_zero (S := S256x16x128) hz3, View.ld_unit_zero (S := S1x1024x1024) hz3, View.ld_unit_zero (S := S1x256) hz2]
  obtain ⟨-, -, -, -, -, -, -, -, -, -, -, e0, e1, e2⟩ := index_facts t
  have hN : cfg0.N = 8 := N_0
  have ht : t.val < 8 := hN ▸ t.isLt
  funext j
  obtain ⟨u, p, co, rfl⟩ : ∃ (u : Fin 1) (p : Fin 1024) (co : Fin 256), j = ix3 u p co := ⟨j 0, j 1, j 2, eq_ix3 j⟩
  obtain rfl : u = 0 := Subsingleton.elim _ _
  show k0_pay1 (wblk V c t) (xblkLo V c t) (xblkHi V c t) (bblk V c t) (ix3 (0 : Fin 1) p co)
      = outArr (xarr V c) (warr V c) (barr V c) (((cfg0.win 4).blk t).view.emb (ix3 (0 : Fin 1) p co))
  refine (payload_apply (wblk V c t) (xblkLo V c t) (xblkHi V c t) (bblk V c t) p co).trans ?_
  have hemb : ((cfg0.win 4).blk t).view.emb (ix3 (0 : Fin 1) p co) = ix3 (⟨t.val, ht⟩ : Fin 8) p co := by
    funext a; apply Fin.ext
    match a with
    | ⟨0, _⟩ => show win0_4.index t (0 : Fin 3) * 1 + 1 * 0 = t.val; rw [e0]; omega
    | ⟨1, _⟩ => show win0_4.index t (1 : Fin 3) * 1024 + 1 * p.val = p.val; rw [e1]; omega
    | ⟨2, _⟩ => show win0_4.index t (2 : Fin 3) * 256 + 1 * co.val = co.val; rw [e2]; omega
  rw [hemb]
  show _ = outAt (xarr V c) (warr V c) (barr V c) (⟨t.val, ht⟩ : Fin 8) co
  unfold outAt
  refine congrArg₂ max (congrArg₂ (· + ·) (congrArg₂ (· + ·) ?_ ?_) (bblk_apply V c t co)) rfl
  · exact Finset.sum_congr rfl fun cc _ => congrArg₂ (· * ·)
      (Finset.sum_congr rfl fun q _ => xblkLo_apply V c t ⟨t.val, ht⟩ rfl q cc) (wblk_apply V c t co _ _)
  · exact Finset.sum_congr rfl fun cc _ => congrArg₂ (· * ·)
      (Finset.sum_congr rfl fun q _ => xblkHi_apply V c t ⟨t.val, ht⟩ rfl q cc) (wblk_apply V c t co _ _)

/-- An index of the output array is in point `t`'s block iff each coordinate is in the block's range on its axis. -/
theorem mem_out_blk (t : Fin cfg0.N) (i : S8x1024x256.Idx) :
    i ∈ ((cfg0.win 4).blk t).view.set ↔ ∀ a : Fin 3, win0_4.index t a * S1x1024x256.size a ≤ (i a).val ∧ (i a).val < win0_4.index t a * S1x1024x256.size a + S1x1024x256.size a := by
  show i ∈ ((View.whole main_v15).slice (win0_4.rect t)).set ↔ _
  rw [View.set_slice_whole, Rect.mem_set_unit]
  exact Iff.rfl

/-- Every index of the output array is covered: sample `n`'s rows are the block of point `n`. -/
theorem out_cover (i : S8x1024x256.Idx) : ∃ t : Fin cfg0.N, (cfg0.win 4).flush t = true ∧ i ∈ ((cfg0.win 4).blk t).view.set := by
  have hN : cfg0.N = 8 := N_0
  have h0 : (i 0).val < 8 := (i 0).isLt
  have h1 : (i 1).val < 1024 := (i 1).isLt
  have h2 : (i 2).val < 256 := (i 2).isLt
  refine ⟨⟨(i 0).val, by rw [hN]; exact h0⟩, flush0_4 _, ?_⟩
  obtain ⟨-, -, -, -, -, -, -, -, -, -, -, e0, e1, e2⟩ := index_facts ⟨(i 0).val, by rw [hN]; exact h0⟩
  rw [mem_out_blk]
  intro a
  match a with
  | ⟨0, _⟩ => show win0_4.index _ (0 : Fin 3) * 1 ≤ (i 0).val ∧ (i 0).val < win0_4.index _ (0 : Fin 3) * 1 + 1; rw [e0]; show (i 0).val * 1 ≤ (i 0).val ∧ (i 0).val < (i 0).val * 1 + 1; omega
  | ⟨1, _⟩ => show win0_4.index _ (1 : Fin 3) * 1024 ≤ (i 1).val ∧ (i 1).val < win0_4.index _ (1 : Fin 3) * 1024 + 1024; rw [e1]; omega
  | ⟨2, _⟩ => show win0_4.index _ (2 : Fin 3) * 256 ≤ (i 2).val ∧ (i 2).val < win0_4.index _ (2 : Fin 3) * 256 + 256; rw [e2]; omega

/-- THE OUTPUT ARRAY after the region is `outArr` of the arrays as the region finds them. -/
theorem out_final (c : Dev nD) : (dat0 V c).arrAt 4 cfg0.N = outArr (xarr V c) (warr V c) (barr V c) :=
  (dat0 V c).arrAt_eq_of_cover 4 (outArr (xarr V c) (warr V c) (barr V c)) (fun t _ => flushed_eq V c t) out_cover

/-- The output array after the region, at one element: the lower-half and upper-half channel sums of
    (pooled input × scaled weight), plus the bias, clamped at zero. -/
theorem region_out (c : Dev nD) (n : Fin 8) (p : Fin 1024) (co : Fin 256) :
    oarr V c (ix3 n p co)
      = max (((∑ cc : Fin 1024, (∑ q : Fin 1024, xarr V c (ix3 n q (lo cc))) * warr V c (ix3 co (d16 (lo cc)) (m128 (lo cc))))
              + (∑ cc : Fin 1024, (∑ q : Fin 1024, xarr V c (ix3 n q (hi cc))) * warr V c (ix3 co (d16 (hi cc)) (m128 (hi cc)))))
            + barr V c (ix2 0 co)) Cert.Spec.zconst := by
  show (dat0 V c).arrAt 4 cfg0.N (ix3 n p co) = _
  rw [out_final V c]
  rfl

end Cert.KernelIdeal.Hand

end
-- ==== Proof.KValue.lean ====
/- The fused kernel's result as a function of the program's arguments: the host operations before
   the region lay the input out channels-last and fold the scale and `2⁻¹⁰` into the weight; the two
   after it lay the [8, 1024, 256] result out as [8, 256, 32, 32]. -/
import proofs.«152753_g2000206983220414_pallasbulk_996_14_alg».proof.Proof.KRegion
import proofs.«152753_g2000206983220414_pallasbulk_996_14_alg».proof.Proof.Spec
import Idealize.ShloMosaic.Lib.ValueIdx
import Idealize.ShloMosaic.Lib.ValueLayout
import Idealize.ShloMosaic.Lib.Pipeline.Value
import Idealize.ShloMosaic.Lib.StableHlo.Run
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL Idealize.SL.Sem
open Cert.Spec (lo hi d16 m128 hOf wOf)

variable (m : (ℓ : Loc nD τ sig) → Buf (Elt Ideal) ℓ) (ρ : Dev nD → PrngReg)

/-- The program's result, the folded scale and the folded bias, read as extended-real arrays. -/
abbrev resK (c : Dev nD) : S8x256x32x32.Idx → EReal := W3 m ρ c (Proc.devRef .tc main_v17)
abbrev scaleK (c : Dev nD) : S256.Idx → EReal := V1 m ρ c main_v3
abbrev biasK (c : Dev nD) : S256.Idx → EReal := V1 m ρ c main_v5

/-- The input and the weight as the program finds them at launch. -/
abbrev launchIn (c : Dev nD) : S8x2048x32x32.Idx → EReal := W0 m ρ c (Proc.devRef .tc main_arg0)
abbrev launchWgt (c : Dev nD) : S256x2048x1x1.Idx → EReal := W0 m ρ c (Proc.devRef .tc main_arg1)

/-- Position (h, w) of the 32×32 plane as a row of the flattened plane. -/
abbrev planeRow (h w : Fin 32) : Fin 1024 := ⟨h.val * 32 + w.val, by omega⟩

/-- The result [8, 256, 32, 32] at (n, co, h, w) is the region's output [8, 1024, 256] at (n, 32·h + w, co):
    the two host operations after the region are a reshape (same row-major position) and a transpose. -/
theorem result_at_plane (c : Dev nD) (n : Fin 8) (co : Fin 256) (h w : Fin 32) :
    resK m ρ c (ix4 n co h w) = oarr (V1 m ρ) c (ix3 n (planeRow h w) co) := by
  have e : resK m ρ c
      = transpose S8x256x32x32 [0, 3, 1, 2]
          (shapeCast S8x32x32x256 (W2 m ρ c (Proc.devRef .tc main_v15) : S8x1024x256.Idx → EReal) shapeCasts_S8x1024x256_S8x32x32x256)
          transposes_S8x32x32x256_S8x256x32x32_0_3_1_2 := by
    dsimp only [resK, W3, hostOps1]; after_results; rfl
  rw [e]
  refine (transpose_apply _ _ _ (ix4 n co h w) (ix4 n h w co)
    (fun b => match b with | ⟨0, _⟩ => rfl | ⟨1, _⟩ => rfl | ⟨2, _⟩ => rfl | ⟨3, _⟩ => rfl)).trans ?_
  refine (shapeCast_apply _ _ (ix4 n h w co) (ix3 n (planeRow h w) co) (by
    rw [Shape.rowMajor_val_three, Shape.rowMajor_val_four]
    show (n.val * 1024 + (h.val * 32 + w.val)) * 256 + co.val = ((n.val * 32 + h.val) * 32 + w.val) * 256 + co.val
    omega)).trans ?_
  rw [W2_out]

/-- The channels-last view [8, 1024, 2048] at (n, q, ch) is the input [8, 2048, 32, 32] at (n, ch, q / 32, q % 32):
    a transpose followed by a reshape. -/
theorem channelsLast_at (c : Dev nD) (n : Fin 8) (q : Fin 1024) (ch : Fin 2048) :
    xarr (V1 m ρ) c (ix3 n q ch) = launchIn m ρ c (ix4 n ch (hOf q) (wOf q)) := by
  have e : xarr (V1 m ρ) c
      = shapeCast S8x1024x2048
          (transpose S8x32x32x2048 [0, 2, 3, 1] (launchIn m ρ c) transposes_S8x2048x32x32_S8x32x32x2048_0_2_3_1)
          shapeCasts_S8x32x32x2048_S8x1024x2048 := by
    dsimp only [xarr, V1, W1, hostOps0]; after_results; rfl
  rw [e]
  refine (shapeCast_apply _ _ (ix3 n q ch) (ix4 n (hOf q) (wOf q) ch) (by
    rw [Shape.rowMajor_val_three, Shape.rowMajor_val_four]
    show ((n.val * 32 + q.val / 32) * 32 + q.val % 32) * 2048 + ch.val = (n.val * 1024 + q.val) * 2048 + ch.val
    omega)).trans ?_
  exact transpose_apply _ _ _ (ix4 n (hOf q) (wOf q) ch) (ix4 n ch (hOf q) (wOf q))
    (fun b => match b with | ⟨0, _⟩ => rfl | ⟨1, _⟩ => rfl | ⟨2, _⟩ => rfl | ⟨3, _⟩ => rfl)

/-- The bias row [1, 256] at (0, co) is the folded bias at co: a broadcast along a new leading axis. -/
theorem biasRow_at (c : Dev nD) (co : Fin 256) :
    barr (V1 m ρ) c (ix2 0 co) = biasK m ρ c (ix1 co) := by
  obtain ⟨T, h5, h6⟩ : ∃ T : S256.Idx → EReal, biasK m ρ c = T
      ∧ barr (V1 m ρ) c = broadcastInDim S1x256 ![1] bcast_S256_S1x256_1 T := by
    refine ⟨?T, ?h1, ?h2⟩
    case h1 => dsimp only [biasK, V1, W1, hostOps0]; after_results
    case h2 => dsimp only [barr, V1, W1, hostOps0]; after_results
  rw [h6, h5]
  exact broadcastInDim_apply _ _ T (ix2 0 co) (ix1 co) (fun a => match a with | ⟨0, _⟩ => rfl)

/-- The scaled weight [256, 16, 128] at (co, ch / 128, ch % 128) is the weight [256, 2048, 1, 1] at (co, ch, 0, 0)
    (a reshape: same row-major position) times the folded scale at co times `2⁻¹⁰` (two products with broadcasts). -/
theorem scaledWeight_at (c : Dev nD) (co : Fin 256) (ch : Fin 2048) :
    warr (V1 m ρ) c (ix3 co (d16 ch) (m128 ch))
      = launchWgt m ρ c (ix4 co ch 0 0) * (scaleK m ρ c (ix1 co) * Cert.Spec.kconst) := by
  obtain ⟨T, h3, h12⟩ : ∃ T : S256.Idx → EReal, scaleK m ρ c = T
      ∧ warr (V1 m ρ) c = mulf (F := Ideal) (shapeCast S256x16x128 (launchWgt m ρ c) shapeCasts_S256x2048x1x1_S256x16x128)
          (broadcastInDim S256x16x128 ![0, 1, 2] bcast_S256x1x1_S256x16x128_0_1_2
            (broadcastInDim S256x1x1 ![0] bcast_S256_S256x1x1_0
              (mulf (F := Ideal) T (broadcastInDim S256 ![] bcast_S_S256 (constant (F := Ideal) S_ .f32 0x3A800000#32))))) := by
    refine ⟨?T, ?h1, ?h2⟩
    case h1 => dsimp only [scaleK, V1, W1, hostOps0]; after_results
    case h2 => dsimp only [warr, V1, W1, hostOps0]; after_results; rfl
  rw [h12, h3]
  refine (mulf_apply _ _ _).trans ?_
  refine congrArg₂ (· * ·) ?_ ?_
  · exact shapeCast_apply _ _ (ix3 co (d16 ch) (m128 ch)) (ix4 co ch 0 0) (by
      rw [Shape.rowMajor_val_three, Shape.rowMajor_val_four]
      show ((co.val * 2048 + ch.val) * 1 + 0) * 1 + 0 = (co.val * 16 + ch.val / 128) * 128 + ch.val % 128
      omega)
  · refine (broadcastInDim_apply _ _ _ (ix3 co (d16 ch) (m128 ch)) (ix3 co 0 0)
      (fun a => match a with | ⟨0, _⟩ => rfl | ⟨1, _⟩ => rfl | ⟨2, _⟩ => rfl)).trans ?_
    refine (broadcastInDim_apply _ _ _ (ix3 co 0 0) (ix1 co) (fun a => match a with | ⟨0, _⟩ => rfl)).trans ?_
    refine (mulf_apply _ _ _).trans ?_
    refine congrArg₂ (· * ·) rfl ?_
    refine (broadcastInDim_apply _ _ _ (ix1 co) ix0 (fun a => a.elim0)).trans ?_
    rfl

/-- The program's result at one element is the kernel's arrangement of the specification, over the
    argument arrays and the folded scale and bias the host operations compute. -/
theorem ker_value (c : Dev nD) (n : Fin 8) (co : Fin 256) (h w : Fin 32) :
    resK m ρ c (ix4 n co h w)
      = Cert.Spec.kerOut (m ((c : Thread nD τ).loc main_arg0)) (m ((c : Thread nD τ).loc main_arg1))
          (scaleK m ρ c) (biasK m ρ c) n co := by
  rw [result_at_plane, region_out]
  unfold Cert.Spec.kerOut Cert.Spec.pool
  refine congrArg₂ max (congrArg₂ (· + ·) (congrArg₂ (· + ·)
    (Finset.sum_congr rfl fun cc _ => ?_) (Finset.sum_congr rfl fun cc _ => ?_)) (biasRow_at m ρ c co)) rfl
  · rw [scaledWeight_at]
    exact congrArg₂ (· * ·) (Finset.sum_congr rfl fun q _ => channelsLast_at m ρ c n q (lo cc)) rfl
  · rw [scaledWeight_at]
    exact congrArg₂ (· * ·) (Finset.sum_congr rfl fun q _ => channelsLast_at m ρ c n q (hi cc)) rfl

end Cert.KernelIdeal.Hand

end
-- ==== Proof.RefRegion0.lean ====
/- The value the reference's reduction kernel leaves in its output array: for sample `n` and output
   channel `co`, the sum over the 2048 input channels of (pooled input × scaled weight). -/
import proofs.«152753_g2000206983220414_pallasbulk_996_14_alg».proof.Proof.Gen.ReferenceIdeal.Frame
import proofs.«152753_g2000206983220414_pallasbulk_996_14_alg».proof.Proof.Spec
import Idealize.ShloMosaic.Lib.ValueIdx
import Idealize.ShloMosaic.Lib.ValueLayout
import Idealize.ShloMosaic.Lib.Pipeline.Value
import Idealize.ShloMosaic.Lib.StableHlo.Run
import Idealize.ShloMosaic.PureOps.Ideal.Laws

set_option maxRecDepth 16384

noncomputable section

open scoped BigOperators

namespace Cert.ReferenceIdeal.Hand

open Cert.ReferenceIdeal Cert.ReferenceIdeal.Gen
open Idealize.ShloMosaic Idealize.ShloMosaic.TcCoe Idealize.ShloMosaic.ValueIdx
open Idealize.SL Idealize.SL.Sem
open Cert.Spec (lo hi d16 m128 hOf wOf)

theorem region0_hz2 : (![0, 0] : Fin 2 → Nat) = fun _ => 0 := funext fun a => by fin_cases a <;> rfl
theorem region0_hz3 : (![0, 0, 0] : Fin 3 → Nat) = fun _ => 0 := funext fun a => by fin_cases a <;> rfl
theorem region0_hz4 : (![0, 0, 0, 0] : Fin 4 → Nat) = fun _ => 0 := funext fun a => by fin_cases a <;> rfl

/-- What one grid point leaves in the output block: the accumulator is zeroed, the lane sums of the input block are
    added to it, and the result is contracted with the weight block into a zero accumulator. The accumulator's
    reads within the point see the stores made just before them. -/
theorem region0_piece {F : FTy → Type} [FloatOps F] (c : Dev nD) (i : grid0.Coords) (a3 : Memref sig .tc .vmem S1x2048x1024 .f32) (h3 : a3.IsWhole)
    (a4 : Memref sig .tc .vmem S2048x256 .f32) (h4 : a4.IsWhole) (a5 : Memref sig .tc .vmem S1x1x1x256 .f32) (h5 : a5.IsWhole)
    (a6 : Memref sig .tc .vmem S1x2048 .f32) (h6 : a6.IsWhole) (hc0 : cond0_0 i) (hc1 : cond0_1 i)
    (x0 : Vec F S1x2048x1024 .f32) (x1 : Vec F S2048x256 .f32) :
    out0_A_2 c i a3 h3 a4 h4 a5 h5 a6 h6 hc0 hc1 x0 x1 = k0_pay3 (k0_pay2 x0 (k0_pay1 (F := F))) x1 := by
  unfold out0_A_2
  rw [View.read_writes_eq_canon _ _ _ (cover0_A_2 c i a3 h3 a4 h4 a5 h5 a6 h6 hc0 hc1 x0 x1)]
  unfold kernelRun0_A
  dsimp only
  sl_unfold_words
  rw [View.canon_unit_zero region0_hz4]
  simp only [View.readCov_cons_toLoadRect, View.readAt_eq_ld, h3.read_unread, h4.read_unread,
    View.ld_unit_zero (S := S1x2048x1024) region0_hz3, View.ld_unit_zero (S := S2048x256) region0_hz2]

/-- The accumulator at channel `cc`: zero plus the sum of the input block over its 1024 lanes. -/
theorem region0_acc_at (x0 : Vec Ideal S1x2048x1024 .f32) (cc : Fin 2048) :
    k0_pay2 x0 (k0_pay1 (F := Ideal)) (ix2 0 cc) = ∑ p : Fin 1024, x0 (ix3 0 cc p) := by
  unfold k0_pay2 k0_pay1
  simp only [shapeCast_self]
  refine (addf_apply _ _ _).trans ?_
  refine (congrArg₂ (· + ·) Ideal.ofBits_zero_f32
    (Ideal.multiReduction_add_single x0 _ reduces_S1x2048x1024_S1x2048 _ _ (ix2 0 cc))).trans ?_
  rw [zero_add]
  refine Finset.sum_congr rfl fun p _ => congrArg x0 (funext fun a => ?_)
  match a with
  | ⟨0, _⟩ => rfl
  | ⟨1, _⟩ => rfl
  | ⟨2, _⟩ => rfl

/-- The contraction's operand indices, axis by axis: the left operand is read at (row of the result, contraction
    position), the right operand at (contraction position, column of the result). -/
theorem region0_lhs_0 (j : S1x256.Idx) (k : dot_S1x2048_S2048x256_S1x256_1_0_0_1_n_n.contr.Idx) :
    (dot_S1x2048_S2048x256_S1x256_1_0_0_1_n_n.lhsIdx j k 0).val = (j 0).val := by
  unfold DotDims.lhsIdx
  rw [dif_neg (show ¬(0 : Fin S1x2048.rank) ∈ dot_S1x2048_S2048x256_S1x256_1_0_0_1_n_n.lhsBatch by decide),
    dif_pos (show (0 : Fin S1x2048.rank) ∈ dot_S1x2048_S2048x256_S1x256_1_0_0_1_n_n.lhsNonContracting by decide)]
  rfl

theorem region0_lhs_1 (j : S1x256.Idx) (k : dot_S1x2048_S2048x256_S1x256_1_0_0_1_n_n.contr.Idx) :
    (dot_S1x2048_S2048x256_S1x256_1_0_0_1_n_n.lhsIdx j k 1).val = (k ⟨0, Nat.one_pos⟩).val :=
  DotDims.lhsIdx_val_of_single _ rfl j k

theorem region0_rhs_0 (j : S1x256.Idx) (k : dot_S1x2048_S2048x256_S1x256_1_0_0_1_n_n.contr.Idx) :
    (dot_S1x2048_S2048x256_S1x256_1_0_0_1_n_n.rhsIdx j k 0).val = (k ⟨0, Nat.one_pos⟩).val :=
  DotDims.rhsIdx_val_of_single _ rfl j k

theorem region0_rhs_1 (j : S1x256.Idx) (k : dot_S1x2048_S2048x256_S1x256_1_0_0_1_n_n.contr.Idx) :
    (dot_S1x2048_S2048x256_S1x256_1_0_0_1_n_n.rhsIdx j k 1).val = (j 1).val := by
  unfold DotDims.rhsIdx
  rw [dif_neg (show ¬(1 : Fin S2048x256.rank) ∈ dot_S1x2048_S2048x256_S1x256_1_0_0_1_n_n.rhsBatch by decide),
    dif_pos (show (1 : Fin S2048x256.rank) ∈ dot_S1x2048_S2048x256_S1x256_1_0_0_1_n_n.rhsNonContracting by decide)]
  rfl

/-- The stored block at output channel `co`: the [1,256] product reshaped to [1,1,1,256] keeps its row-major
    position, and the product into a zero accumulator is the sum over the 2048 contraction positions. -/
theorem region0_mm_at (a : Vec Ideal S1x2048 .f32) (x1 : Vec Ideal S2048x256 .f32) (co : Fin 256) :
    k0_pay3 a x1 (ix4 0 0 0 co) = ∑ cc : Fin 2048, a (ix2 0 cc) * x1 (ix2 cc co) := by
  unfold k0_pay3
  simp only [shapeCast_self]
  refine (shapeCast_apply _ _ (ix4 0 0 0 co) (ix2 0 co) ?_).trans ?_
  · rw [Shape.rowMajor_val_two, Shape.rowMajor_val_four]; rfl
  refine (Ideal.matmul_constant_zero_apply dot_S1x2048_S2048x256_S1x256_1_0_0_1_n_n none a x1 (ix2 0 co)).trans ?_
  rw [← Equiv.sum_comp (contrEquiv1 dot_S1x2048_S2048x256_S1x256_1_0_0_1_n_n 2048 rfl rfl).symm]
  refine Finset.sum_congr rfl fun cc _ => ?_
  have hk := contrEquiv1_symm_val dot_S1x2048_S2048x256_S1x256_1_0_0_1_n_n 2048 rfl rfl cc
  refine congrArg₂ (· * ·) (congrArg a (funext fun ax => Fin.ext ?_)) (congrArg x1 (funext fun ax => Fin.ext ?_))
  · match ax with
    | ⟨0, _⟩ => exact region0_lhs_0 _ _
    | ⟨1, _⟩ => exact (region0_lhs_1 _ _).trans hk
  · match ax with
    | ⟨0, _⟩ => exact (region0_rhs_0 _ _).trans hk
    | ⟨1, _⟩ => exact region0_rhs_1 _ _

variable (V : (c : Dev nD) → (b : Ref sig .tc) → Buf (Elt Ideal) ((c : Thread nD τ).loc b))

/-- The first region's arrays read as extended-real arrays of their literal shapes: the input with the
    spatial plane flattened, the scaled transposed weight, and the output after the region. -/
abbrev xarr (c : Dev nD) : S8x2048x1024.Idx → EReal := V c main_v11
abbrev warr (c : Dev nD) : S2048x256.Idx → EReal := V c main_v10
abbrev oarr0 (c : Dev nD) : S8x1x1x256.Idx → EReal := (dat0 V c).arrAt 2 cfg0.N

/-- The two input blocks at a grid point, at their literal types. -/
abbrev region0_xblk (c : Dev nD) (t : Fin cfg0.N) : Vec Ideal S1x2048x1024 .f32 := iblk0 V c 0 t
abbrev region0_wblk (c : Dev nD) (t : Fin cfg0.N) : Vec Ideal S2048x256 .f32 := iblk0 V c 1 t

/-- The block indices of the three windows at a grid point: the input and output blocks follow the point's
    sample, the weight block never moves. Decided over the eight points. -/
theorem region0_idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 4) = t.val ∧ win0_2.index t (1 : Fin 4) = 0 ∧ win0_2.index t (2 : Fin 4) = 0
    ∧ win0_2.index t (3 : Fin 4) = 0 :=
  (by decide +kernel : ∀ t : Fin grid0.N, _)

/-- The input block at point `t` is sample `t` of the input array: a block's coordinate is block index times
    block size plus the coordinate inside the block. -/
theorem region0_xblk_apply (c : Dev nD) (t : Fin cfg0.N) (cc : Fin 2048) (p : Fin 1024) (k : S8x2048x1024.Idx)
    (h0 : (k 0).val = t.val) (h1 : (k 1).val = cc.val) (h2 : (k 2).val = p.val) :
    region0_xblk V c t (ix3 0 cc p) = xarr V c k := by
  obtain ⟨e0, e1, e2, -⟩ := region0_idx_facts t
  unfold region0_xblk iblk0
  rw [View.read_apply]
  show V c main_v11 _ = V c main_v11 _
  congr 1
  funext a
  apply Fin.ext
  match a with
  | ⟨0, _⟩ => show win0_0.index t (0 : Fin 3) * 1 + 1 * 0 = (k 0).val; rw [e0, h0]; omega
  | ⟨1, _⟩ => show win0_0.index t (1 : Fin 3) * 2048 + 1 * cc.val = (k 1).val; rw [e1, h1]; omega
  | ⟨2, _⟩ => show win0_0.index t (2 : Fin 3) * 1024 + 1 * p.val = (k 2).val; rw [e2, h2]; omega

/-- The weight block at every point is the whole weight array. -/
theorem region0_wblk_apply (c : Dev nD) (t : Fin cfg0.N) (cc : Fin 2048) (co : Fin 256) :
    region0_wblk V c t (ix2 cc co) = warr V c (ix2 cc co) := by
  obtain ⟨-, -, -, e3, e4, -⟩ := region0_idx_facts t
  unfold region0_wblk iblk0
  rw [View.read_apply]
  show V c main_v10 _ = V c main_v10 _
  congr 1
  funext a
  apply Fin.ext
  match a with
  | ⟨0, _⟩ => show win0_1.index t (0 : Fin 2) * 2048 + 1 * cc.val = cc.val; rw [e3]; omega
  | ⟨1, _⟩ => show win0_1.index t (1 : Fin 2) * 256 + 1 * co.val = co.val; rw [e4]; omega

/-- The whole output array after the region: per sample and output channel, the pooled input contracted with the
    weight over the 2048 input channels. -/
def region0_gout (c : Dev nD) : S8x1x1x256.Idx → EReal := fun i =>
  ∑ cc : Fin 2048, (∑ p : Fin 1024, xarr V c (ix3 (i 0 : Fin 8) cc p)) * warr V c (ix2 cc (i 3 : Fin 256))

/-- What point `t` leaves in the output block, element by element, is block `t` of that array. -/
theorem region0_point_val (c : Dev nD) (t : Fin cfg0.N) (y : S1x1x1x256.Idx) :
    k0_pay3 (k0_pay2 (region0_xblk V c t) (k0_pay1 (F := Ideal))) (region0_wblk V c t) y
      = region0_gout V c (((cfg0.win 2).blk t).view.emb y) := by
  obtain ⟨-, -, -, -, -, e5, -, -, e8⟩ := region0_idx_facts t
  obtain ⟨a, b, d, co, rfl⟩ : ∃ (a b d : Fin 1) (co : Fin 256), y = ix4 a b d co := ⟨y 0, y 1, y 2, y 3, eq_ix4 y⟩
  obtain rfl : a = 0 := Subsingleton.elim _ _
  obtain rfl : b = 0 := Subsingleton.elim _ _
  obtain rfl : d = 0 := Subsingleton.elim _ _
  refine (region0_mm_at (k0_pay2 (region0_xblk V c t) (k0_pay1 (F := Ideal))) (region0_wblk V c t) co).trans ?_
  unfold region0_gout
  refine Finset.sum_congr rfl fun cc _ => congrArg₂ (· * ·) ((region0_acc_at (region0_xblk V c t) cc).trans
    (Finset.sum_congr rfl fun p _ => region0_xblk_apply V c t cc p _ ?_ rfl rfl)) ((region0_wblk_apply V c t cc co).trans (congrArg (warr V c) ?_))
  · show win0_2.index t (0 : Fin 4) * 1 + 1 * 0 = t.val
    rw [e5]; omega
  · refine congrArg (ix2 cc) (Fin.ext ?_)
    show co.val = win0_2.index t (3 : Fin 4) * 256 + 1 * co.val
    rw [e8]; omega
/-- What point `t` writes back is block `t` of that array. -/
theorem region0_flushed_eq (c : Dev nD) (t : Fin cfg0.N) :
    (dat0 V c).flushed 2 t = ((cfg0.win 2).blk t).view.read (Elt Ideal) (region0_gout V c) := by
  show (cfg0.win 2).cut (grid0.coords t) ((dat0 V c).after 2 t) = _
  rw [after0_2]
  unfold outsAt0
  funext y
  rw [View.read_apply]
  exact (congrFun (region0_piece (F := Ideal) c (grid0.coords t) (ms0_0 t) (hs0_0 t) (ms0_1 t) (hs0_1 t) (ms0_2 t) (hs0_2 t)
    scM0_0 (Memref.isWhole_whole _) (hcond0_0 t) (hcond0_1 t) (region0_xblk V c t) (region0_wblk V c t)) y).trans (region0_point_val V c t y)

/-- The grid has eight points, one per sample. -/
theorem region0_N_eq : cfg0.N = 8 := by decide

/-- The first region's output array, at one element. -/
theorem region0_out (c : Dev nD) (n : Fin 8) (co : Fin 256) :
    oarr0 V c (ix4 n 0 0 co)
      = ∑ cc : Fin 2048, (∑ p : Fin 1024, xarr V c (ix3 n cc p)) * warr V c (ix2 cc co) := by
  -- row `n` of the output is in the block of the point whose sample is `n`, and every point writes its block back
  obtain ⟨-, -, -, -, -, e5, e6, e7, e8⟩ := region0_idx_facts (n.cast region0_N_eq.symm)
  have e5' : win0_2.index (n.cast region0_N_eq.symm) (0 : Fin 4) = n.val := e5
  have hmem : (ix4 n 0 0 co : S8x1x1x256.Idx) ∈ ((cfg0.win 2).blk (n.cast region0_N_eq.symm)).view.set := by
    show _ ∈ ((View.whole main_v12).slice (win0_2.rect (n.cast region0_N_eq.symm))).set
    rw [View.set_slice_whole, Rect.mem_set_unit]
    intro a
    match a with
    | ⟨0, _⟩ =>
      show win0_2.index (n.cast region0_N_eq.symm) (0 : Fin 4) * 1 ≤ n.val ∧ n.val < win0_2.index (n.cast region0_N_eq.symm) (0 : Fin 4) * 1 + 1
      rw [e5']; omega
    | ⟨1, _⟩ =>
      show win0_2.index (n.cast region0_N_eq.symm) (1 : Fin 4) * 1 ≤ 0 ∧ 0 < win0_2.index (n.cast region0_N_eq.symm) (1 : Fin 4) * 1 + 1
      rw [e6]; omega
    | ⟨2, _⟩ =>
      show win0_2.index (n.cast region0_N_eq.symm) (2 : Fin 4) * 1 ≤ 0 ∧ 0 < win0_2.index (n.cast region0_N_eq.symm) (2 : Fin 4) * 1 + 1
      rw [e7]; omega
    | ⟨3, _⟩ =>
      show win0_2.index (n.cast region0_N_eq.symm) (3 : Fin 4) * 256 ≤ co.val ∧ co.val < win0_2.index (n.cast region0_N_eq.symm) (3 : Fin 4) * 256 + 256
      rw [e8]; omega
  exact (dat0 V c).arrAt_apply_of_mem 2 (region0_gout V c) (fun t _ => region0_flushed_eq V c t) cfg0.N (n.cast region0_N_eq.symm)
    (ix4 n 0 0 co) (n.cast region0_N_eq.symm).isLt (flush0_2 _) hmem

end Cert.ReferenceIdeal.Hand

end
-- ==== Proof.RefValue.lean ====
/- The reference's result as a function of the program's arguments: the host operations before the
   first region flatten the spatial plane and scale the transposed weight; those between the regions
   scale the channel sum by `2⁻¹⁰`, add the bias and clamp; the second region repeats each value
   over the spatial plane and the last operation restores the [8, 256, 32, 32] layout. -/
import proofs.«152753_g2000206983220414_pallasbulk_996_14_alg».proof.Proof.RefRegion0
import proofs.«152753_g2000206983220414_pallasbulk_996_14_alg».proof.Proof.Spec
import Idealize.ShloMosaic.Lib.ValueIdx
import Idealize.ShloMosaic.Lib.ValueLayout
import Idealize.ShloMosaic.Lib.Pipeline.Value
import Idealize.ShloMosaic.Lib.StableHlo.Run
import Idealize.ShloMosaic.PureOps.Ideal.Laws
import Idealize.ShloMosaic.Lib.IdealHost

set_option maxRecDepth 16384

noncomputable section

open scoped BigOperators

namespace Cert.ReferenceIdeal.Hand

open Cert.ReferenceIdeal Cert.ReferenceIdeal.Gen
open Idealize.ShloMosaic Idealize.ShloMosaic.TcCoe Idealize.ShloMosaic.ValueIdx
open Idealize.SL Idealize.SL.Sem
open Cert.Spec (lo hi d16 m128 hOf wOf)

variable (m : (ℓ : Loc nD τ sig) → Buf (Elt Ideal) ℓ) (ρ : Dev nD → PrngReg)

/-- The program's result, the folded scale and the folded bias, read as extended-real arrays. -/
abbrev resR (c : Dev nD) : S8x256x32x32.Idx → EReal := W5 m ρ c (Proc.devRef .tc main_v24)
abbrev scaleR (c : Dev nD) : S256.Idx → EReal := V1 m ρ c main_v3
abbrev biasR (c : Dev nD) : S256.Idx → EReal := V1 m ρ c main_v5

/-- The second region's output array, as an extended-real array of its literal shape. -/
abbrev bcR (c : Dev nD) : S8x256x1024.Idx → EReal := W4 m ρ c (Proc.devRef .tc main_v23)

/-- The last host operation restores the spatial plane: element (n, co, h, w) of the result is element
    (n, co, 32·h + w) of the second region's output (equal row-major positions). -/
theorem res_eq (c : Dev nD) (n : Fin 8) (co : Fin 256) (h w : Fin 32) :
    resR m ρ c (ix4 n co h w) = bcR m ρ c (ix3 n co ⟨h.val * 32 + w.val, by omega⟩) := by
  show W5 m ρ c (Proc.devRef .tc main_v24) (ix4 n co h w) = _
  dsimp only [W5, hostOps2]
  after_results
  show shapeCast S8x256x32x32 (bcR m ρ c) shapeCasts_S8x256x1024_S8x256x32x32 (ix4 n co h w) = _
  refine shapeCast_apply (bcR m ρ c) shapeCasts_S8x256x1024_S8x256x32x32 (ix4 n co h w) (ix3 n co ⟨h.val * 32 + w.val, by omega⟩) ?_
  rw [Shape.rowMajor_val_three, Shape.rowMajor_val_four]
  show (n.val * 256 + co.val) * 1024 + (h.val * 32 + w.val) = ((n.val * 256 + co.val) * 32 + h.val) * 32 + w.val
  omega

/-- The second region's input array, as an extended-real array of its literal shape. -/
abbrev inR (c : Dev nD) : S8x256x1.Idx → EReal := V3 m ρ c main_v22

/-- The broadcast kernel's stored value at an index: the loaded block at the same channel. -/
theorem pay_apply (x0 : Vec Ideal S1x256x1 .f32) (j : S1x256x1024.Idx) (k : S1x256x1.Idx)
    (hk0 : (k 0).val = 0) (hk1 : (k 1).val = (j 1).val) (hk2 : (k 2).val = 0) : k1_pay1 x0 j = x0 k := by
  unfold k1_pay1
  rw [shapeCast_self, shapeCast_self]
  refine broadcastTo_apply x0 broadcasts_S1x256x1_S1x256x1024 j k fun a => ?_
  match a with
  | ⟨0, _⟩ => exact hk0
  | ⟨1, _⟩ => exact hk1
  | ⟨2, _⟩ => exact hk2

theorem zero3 : (![0, 0, 0] : Fin 3 → Nat) = fun _ => 0 := funext fun a => by fin_cases a <;> rfl

/-- What the second region's output ends holding: each value of its input repeated over the last axis. -/
abbrev spread (a : S8x256x1.Idx → EReal) : S8x256x1024.Idx → EReal :=
  fun i => a (ix3 (⟨(i 0).val, (i 0).isLt⟩ : Fin 8) (⟨(i 1).val, (i 1).isLt⟩ : Fin 256) (0 : Fin 1))

/-- The printed index maps, decided over the grid: both windows' blocks sit at the point's sample, at block 0 on
    the other axes. -/
theorem idx_facts : ∀ t : Fin cfg1.N, win1_0.index t (0 : Fin 3) = win1_1.index t (0 : Fin 3)
    ∧ win1_0.index t (1 : Fin 3) = 0 ∧ win1_0.index t (2 : Fin 3) = 0
    ∧ win1_1.index t (1 : Fin 3) = 0 ∧ win1_1.index t (2 : Fin 3) = 0 ∧ win1_1.index t (0 : Fin 3) ≤ 7 :=
  (by decide +kernel : ∀ t : Fin grid1.N, _)

/-- Every sample's block is some point's. -/
theorem idx_onto : ∀ q : Fin 8, ∃ t : Fin cfg1.N, win1_1.index t = ![q.val, 0, 0] :=
  (by decide +kernel : ∀ q : Fin 8, ∃ t : Fin grid1.N, win1_1.index t = ![q.val, 0, 0])

/-- What a point writes back is its block of the repeated input. -/
theorem flushed_eq (c : Dev nD) (t : Fin cfg1.N) :
    (dat1 (V3 m ρ) c).flushed 1 t = ((cfg1.win 1).blk t).view.read (Elt Ideal) (spread (inR m ρ c)) := by
  show (cfg1.win 1).cut (grid1.coords t) ((dat1 (V3 m ρ) c).after 1 t) = _
  rw [after1_1]
  unfold out1_1
  rw [View.canon_unit_zero zero3]
  simp only [View.ld_unit_zero (S := S1x256x1) zero3]
  obtain ⟨e0, e1, e2, e3, e4, e5⟩ := idx_facts t
  funext j
  show k1_pay1 (iblk1 (V3 m ρ) c 0 t) j = spread (inR m ρ c) (((cfg1.win 1).blk t).view.emb j)
  have hj0 : (j 0).val < 1 := (j 0).isLt
  have hj1 : (j 1).val < 256 := (j 1).isLt
  refine (pay_apply (iblk1 (V3 m ρ) c 0 t) j (ix3 (0 : Fin 1) (⟨(j 1).val, hj1⟩ : Fin 256) (0 : Fin 1)) rfl rfl rfl).trans ?_
  show inR m ρ c (((cfg1.win 0).blk t).view.emb (ix3 (0 : Fin 1) (⟨(j 1).val, hj1⟩ : Fin 256) (0 : Fin 1)))
    = spread (inR m ρ c) (((cfg1.win 1).blk t).view.emb j)
  refine congrArg (inR m ρ c) ?_
  funext a; apply Fin.ext
  match a with
  | ⟨0, _⟩ => show win1_0.index t (0 : Fin 3) * 1 + 1 * 0 = win1_1.index t (0 : Fin 3) * 1 + 1 * (j 0).val; omega
  | ⟨1, _⟩ => show win1_0.index t (1 : Fin 3) * 256 + 1 * (j 1).val = win1_1.index t (1 : Fin 3) * 256 + 1 * (j 1).val; omega
  | ⟨2, _⟩ => show win1_0.index t (2 : Fin 3) * 1 + 1 * 0 = 0; omega

/-- An index of the array is in point t's block iff each coordinate is in the block's range on its axis. -/
theorem mem_blk (t : Fin cfg1.N) (i : S8x256x1024.Idx) :
    i ∈ ((cfg1.win 1).blk t).view.set ↔ ∀ a : Fin 3, win1_1.index t a * S1x256x1024.size a ≤ (i a).val ∧ (i a).val < win1_1.index t a * S1x256x1024.size a + S1x256x1024.size a := by
  show i ∈ ((View.whole main_v23).slice (win1_1.rect t)).set ↔ _
  rw [View.set_slice_whole, Rect.mem_set_unit]
  exact Iff.rfl

/-- Every index of the output is in some point's block: the point at the index's sample. -/
theorem cover (i : S8x256x1024.Idx) :
    ∃ t : Fin cfg1.N, (cfg1.win 1).flush t = true ∧ i ∈ ((cfg1.win 1).blk t).view.set := by
  have hi0 : (i 0).val < 8 := (i 0).isLt
  have hi1 : (i 1).val < 256 := (i 1).isLt
  have hi2 : (i 2).val < 1024 := (i 2).isLt
  obtain ⟨t, ht⟩ := idx_onto ⟨(i 0).val, hi0⟩
  have q0 : win1_1.index t (0 : Fin 3) = (i 0).val := congrFun ht 0
  have q1 : win1_1.index t (1 : Fin 3) = 0 := congrFun ht 1
  have q2 : win1_1.index t (2 : Fin 3) = 0 := congrFun ht 2
  refine ⟨t, flush1_1 t, ?_⟩
  rw [mem_blk]
  intro a
  match a with
  | ⟨0, _⟩ => show win1_1.index t (0 : Fin 3) * 1 ≤ (i 0).val ∧ (i 0).val < win1_1.index t (0 : Fin 3) * 1 + 1; omega
  | ⟨1, _⟩ => show win1_1.index t (1 : Fin 3) * 256 ≤ (i 1).val ∧ (i 1).val < win1_1.index t (1 : Fin 3) * 256 + 256; omega
  | ⟨2, _⟩ => show win1_1.index t (2 : Fin 3) * 1024 ≤ (i 2).val ∧ (i 2).val < win1_1.index t (2 : Fin 3) * 1024 + 1024; omega

/-- The second region's output array after the region: its input repeated over the last axis. -/
theorem bc_eq (c : Dev nD) : bcR m ρ c = spread (inR m ρ c) := by
  show W4 m ρ c (Proc.devRef .tc main_v23) = _
  refine (W4_arr m ρ c 1).trans ?_
  exact (dat1 (V3 m ρ) c).arrAt_eq_of_cover 1 (spread (inR m ρ c)) (fun t _ => flushed_eq m ρ c t) cover

/-- The first region's output array and the folded bias as the second stretch of host operations finds them. -/
abbrev o0R (c : Dev nD) : S8x1x1x256.Idx → EReal := W2 m ρ c (Proc.devRef .tc main_v12)
abbrev b2R (c : Dev nD) : S256.Idx → EReal := W2 m ρ c (Proc.devRef .tc main_v5)

/-- The second region's input at (n, co, 0): the first region's output at (n, 0, 0, co) — a sum over an axis of
    extent one from a zero initial value —, times the reciprocal of the pooled area, plus the bias, clamped at zero. -/
theorem in_eq (c : Dev nD) (n : Fin 8) (co : Fin 256) :
    inR m ρ c (ix3 n co (0 : Fin 1))
      = max (o0R m ρ c (ix4 n (0 : Fin 1) (0 : Fin 1) co) * Cert.Spec.kconst + b2R m ρ c (ix1 co)) Cert.Spec.zconst := by
  show V3 m ρ c main_v22 (ix3 n co (0 : Fin 1)) = _
  dsimp only [V3, W3, hostOps1]
  after_results
  refine (broadcastInDim_apply _ _ _ (ix3 n co (0 : Fin 1)) (ix2 n co) fun a => ?_).trans ?_
  · match a with
    | ⟨0, _⟩ => rfl
    | ⟨1, _⟩ => rfl
  refine (maximumf_apply _ _ (ix2 n co)).trans ?_
  refine congrArg₂ max ?_ ?_
  · refine (addf_apply _ _ (ix2 n co)).trans ?_
    refine congrArg₂ (· + ·) ?_ ?_
    · refine (mulf_apply _ _ (ix2 n co)).trans ?_
      refine congrArg₂ (· * ·) ?_ ?_
      · have hr : Shape.Reduces S8x1x256 [1] S8x256 := by decide
        refine (hostReduceAdd_apply _ _ reducesTo_S8x1x256_S8x256_d1 h_S_ (ix2 n co)).trans ?_
        refine (Ideal.hostReduceAdd_single reducesTo_S8x1x256_S8x256_d1 hr _ _ (ix2 n co)).trans ?_
        rw [constant_apply, Ideal.ofBits_zero_f32, zero_add]
        refine (Fin.sum_univ_one _).trans ?_
        show shapeCast S8x1x256 (o0R m ρ c) shapeCasts_S8x1x1x256_S8x1x256 _ = _
        refine shapeCast_apply (o0R m ρ c) shapeCasts_S8x1x1x256_S8x1x256 _
          (ix4 n (0 : Fin 1) (0 : Fin 1) co) ?_
        rw [Shape.rowMajor_val_four, Shape.rowMajor_val_three]
        show ((n.val * 1 + 0) * 1 + 0) * 256 + co.val = (n.val * 1 + 0) * 256 + co.val
        omega
      · exact (broadcastInDim_apply _ _ _ (ix2 n co) ix0 fun a => a.elim0).trans rfl
    · refine (broadcastInDim_apply _ _ _ (ix2 n co) (ix2 (0 : Fin 1) co) fun a => ?_).trans ?_
      · match a with
        | ⟨0, _⟩ => rfl
        | ⟨1, _⟩ => rfl
      refine (broadcastInDim_apply _ _ _ (ix2 (0 : Fin 1) co) (ix1 co) fun a => ?_).trans rfl
      match a with
      | ⟨0, _⟩ => rfl
  · exact (broadcastInDim_apply _ _ _ (ix2 n co) ix0 fun a => a.elim0).trans rfl

/-- The two array arguments, as extended-real arrays of their literal shapes. -/
abbrev a0R (c : Dev nD) : S8x2048x32x32.Idx → EReal := m ((c : Thread nD τ).loc main_arg0)
abbrev a1R (c : Dev nD) : S256x2048x1x1.Idx → EReal := m ((c : Thread nD τ).loc main_arg1)

/-- The first region's input is the first argument with the spatial plane flattened: position p of the plane is
    (p / 32, p % 32). -/
theorem x_eq (c : Dev nD) (n : Fin 8) (cc : Fin 2048) (p : Fin 1024) :
    xarr (V1 m ρ) c (ix3 n cc p) = a0R m c (ix4 n cc (hOf p) (wOf p)) := by
  show V1 m ρ c main_v11 (ix3 n cc p) = _
  dsimp only [V1, W1, hostOps0]
  after_results
  show shapeCast S8x2048x1024 (a0R m c) shapeCasts_S8x2048x32x32_S8x2048x1024 (ix3 n cc p) = _
  refine shapeCast_apply (a0R m c) shapeCasts_S8x2048x32x32_S8x2048x1024 (ix3 n cc p) (ix4 n cc (hOf p) (wOf p)) ?_
  rw [Shape.rowMajor_val_four, Shape.rowMajor_val_three]
  show ((n.val * 2048 + cc.val) * 32 + p.val / 32) * 32 + p.val % 32 = (n.val * 2048 + cc.val) * 1024 + p.val
  omega

/-- The folded scale as the host operations compute it from the arguments. -/
theorem w_eq (c : Dev nD) (cc : Fin 2048) (co : Fin 256) :
    warr (V1 m ρ) c (ix2 cc co) = a1R m c (ix4 co cc (0 : Fin 1) (0 : Fin 1)) * scaleR m ρ c (ix1 co) := by
  have hs : scaleR m ρ c = Host.divf (W0 m ρ c (Proc.devRef .tc main_arg2))
      (Host.sqrt (addf (W0 m ρ c (Proc.devRef .tc main_arg5))
        (broadcastInDim S256 ![] bcast_S_S256 (constant (F := Ideal) S_ .f32 0x3727C5AC#32)))) := by
    show V1 m ρ c main_v3 = _
    dsimp only [V1, W1, hostOps0]
    after_results
  rw [hs]
  show V1 m ρ c main_v10 (ix2 cc co) = _
  dsimp only [V1, W1, hostOps0]
  after_results
  refine (mulf_apply _ _ (ix2 cc co)).trans ?_
  refine congrArg₂ (· * ·) ?_ ?_
  · refine (transpose_apply _ _ _ (ix2 cc co) (ix2 co cc) fun b => ?_).trans ?_
    · match b with
      | ⟨0, _⟩ => rfl
      | ⟨1, _⟩ => rfl
    show shapeCast S256x2048 (a1R m c) shapeCasts_S256x2048x1x1_S256x2048 (ix2 co cc) = _
    refine shapeCast_apply (a1R m c) shapeCasts_S256x2048x1x1_S256x2048 (ix2 co cc) (ix4 co cc (0 : Fin 1) (0 : Fin 1)) ?_
    rw [Shape.rowMajor_val_four, Shape.rowMajor_val_two]
    show ((co.val * 2048 + cc.val) * 1 + 0) * 1 + 0 = co.val * 2048 + cc.val
    omega
  · refine (broadcastInDim_apply _ _ _ (ix2 cc co) (ix2 (0 : Fin 1) co) fun a => ?_).trans ?_
    · match a with
      | ⟨0, _⟩ => rfl
      | ⟨1, _⟩ => rfl
    refine (broadcastInDim_apply _ _ _ (ix2 (0 : Fin 1) co) (ix1 co) fun a => ?_).trans rfl
    match a with
    | ⟨0, _⟩ => rfl

/-- The program's result at one element is the reference's arrangement of the specification, over the
    argument arrays and the folded scale and bias the host operations compute. -/
theorem ref_value (c : Dev nD) (n : Fin 8) (co : Fin 256) (h w : Fin 32) :
    resR m ρ c (ix4 n co h w)
      = Cert.Spec.refOut (m ((c : Thread nD τ).loc main_arg0)) (m ((c : Thread nD τ).loc main_arg1))
          (scaleR m ρ c) (biasR m ρ c) n co := by
  rw [res_eq m ρ c n co h w, bc_eq m ρ c]
  show inR m ρ c (ix3 n co (0 : Fin 1)) = _
  rw [in_eq m ρ c n co]
  -- the first region's output is its channel sum; the bias is untouched by the first region
  have ho : o0R m ρ c (ix4 n (0 : Fin 1) (0 : Fin 1) co)
      = ∑ cc : Fin 2048, (∑ p : Fin 1024, xarr (V1 m ρ) c (ix3 n cc p)) * warr (V1 m ρ) c (ix2 cc co) :=
    (congrFun (W2_arr m ρ c 2) (ix4 n (0 : Fin 1) (0 : Fin 1) co)).trans (region0_out (V1 m ρ) c n co)
  have hb : b2R m ρ c = biasR m ρ c := W2_of_ne m ρ c main_v5 (by decide)
  rw [ho, hb]
  unfold Cert.Spec.refOut Cert.Spec.pool
  refine congrArg (fun z : EReal => max (z * Cert.Spec.kconst + biasR m ρ c (ix1 co)) Cert.Spec.zconst) ?_
  refine Finset.sum_congr rfl fun cc _ => ?_
  rw [w_eq m ρ c cc co]
  exact congrArg (· * (a1R m c (ix4 co cc (0 : Fin 1) (0 : Fin 1)) * scaleR m ρ c (ix1 co)))
    (Finset.sum_congr rfl fun p _ => x_eq m ρ c n cc p)

end Cert.ReferenceIdeal.Hand

end
-- ==== Proof.Assemble.lean ====
/- The two programs meet: both compute the folded batch-norm scale and bias by the same host operations
   on the same arguments, the kernel program's result is the kernel's arrangement of the specification
   and the reference's is the reference's arrangement, and the two arrangements agree on the extended
   reals (a non-negative finite factor distributes over the channel sum). -/
import proofs.«152753_g2000206983220414_pallasbulk_996_14_alg».proof.Proof.KValue
import proofs.«152753_g2000206983220414_pallasbulk_996_14_alg».proof.Proof.RefValue
import proofs.«152753_g2000206983220414_pallasbulk_996_14_alg».proof.Proof.Spec

set_option maxRecDepth 16384

noncomputable section

namespace Cert.Bridge

open Idealize.ShloMosaic Idealize.ShloMosaic.TcCoe Idealize.ShloMosaic.ValueIdx
open Idealize.SL Idealize.SL.Sem

variable (m : (ℓ : Loc Cert.KernelIdeal.nD Cert.KernelIdeal.τ Cert.KernelIdeal.sig) → Buf (Elt Ideal) ℓ) (ρ : Dev Cert.KernelIdeal.nD → PrngReg)
  (m' : (ℓ : Loc Cert.ReferenceIdeal.nD Cert.ReferenceIdeal.τ Cert.ReferenceIdeal.sig) → Buf (Elt Ideal) ℓ) (ρ' : Dev Cert.ReferenceIdeal.nD → PrngReg)

/-- The memories agree on the six arguments. -/
def Agree : Prop :=
  ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)

variable {m ρ m' ρ'}

/-- Both programs compute the scale `γ / √(σ² + ε)` by the same four host operations. -/
theorem scale_agree (h : Agree m m') (c : Dev Cert.KernelIdeal.nD) :
    Cert.ReferenceIdeal.Hand.scaleR m' ρ' c = Cert.KernelIdeal.Hand.scaleK m ρ c := by
  show Cert.ReferenceIdeal.Gen.W1 m' ρ' c (Proc.devRef .tc Cert.ReferenceIdeal.main_v3) = Cert.KernelIdeal.Hand.W1 m ρ c (Proc.devRef .tc Cert.KernelIdeal.main_v3)
  dsimp only [Cert.KernelIdeal.Hand.W1, Cert.KernelIdeal.Gen.hostOps0, Cert.ReferenceIdeal.Gen.W1, Cert.ReferenceIdeal.Gen.hostOps0]
  after_results
  rw [show Cert.ReferenceIdeal.Gen.W0 m' ρ' c (Proc.devRef .tc Cert.ReferenceIdeal.main_arg2) = Cert.KernelIdeal.Hand.W0 m ρ c (Proc.devRef .tc Cert.KernelIdeal.main_arg2) from (h c).2.2.1,
    show Cert.ReferenceIdeal.Gen.W0 m' ρ' c (Proc.devRef .tc Cert.ReferenceIdeal.main_arg5) = Cert.KernelIdeal.Hand.W0 m ρ c (Proc.devRef .tc Cert.KernelIdeal.main_arg5) from (h c).2.2.2.2.2]

/-- Both programs compute the bias `β − μ · scale` by the same two further host operations. -/
theorem bias_agree (h : Agree m m') (c : Dev Cert.KernelIdeal.nD) :
    Cert.ReferenceIdeal.Hand.biasR m' ρ' c = Cert.KernelIdeal.Hand.biasK m ρ c := by
  show Cert.ReferenceIdeal.Gen.W1 m' ρ' c (Proc.devRef .tc Cert.ReferenceIdeal.main_v5) = Cert.KernelIdeal.Hand.W1 m ρ c (Proc.devRef .tc Cert.KernelIdeal.main_v5)
  dsimp only [Cert.KernelIdeal.Hand.W1, Cert.KernelIdeal.Gen.hostOps0, Cert.ReferenceIdeal.Gen.W1, Cert.ReferenceIdeal.Gen.hostOps0]
  after_results
  rw [show Cert.ReferenceIdeal.Gen.W0 m' ρ' c (Proc.devRef .tc Cert.ReferenceIdeal.main_arg2) = Cert.KernelIdeal.Hand.W0 m ρ c (Proc.devRef .tc Cert.KernelIdeal.main_arg2) from (h c).2.2.1,
    show Cert.ReferenceIdeal.Gen.W0 m' ρ' c (Proc.devRef .tc Cert.ReferenceIdeal.main_arg3) = Cert.KernelIdeal.Hand.W0 m ρ c (Proc.devRef .tc Cert.KernelIdeal.main_arg3) from (h c).2.2.2.1,
    show Cert.ReferenceIdeal.Gen.W0 m' ρ' c (Proc.devRef .tc Cert.ReferenceIdeal.main_arg4) = Cert.KernelIdeal.Hand.W0 m ρ c (Proc.devRef .tc Cert.KernelIdeal.main_arg4) from (h c).2.2.2.2.1,
    show Cert.ReferenceIdeal.Gen.W0 m' ρ' c (Proc.devRef .tc Cert.ReferenceIdeal.main_arg5) = Cert.KernelIdeal.Hand.W0 m ρ c (Proc.devRef .tc Cert.KernelIdeal.main_arg5) from (h c).2.2.2.2.2]

/-- The two programs' results agree, element by element. -/
theorem result_agree (h : Agree m m') (c : Dev Cert.KernelIdeal.nD) :
    Cert.ReferenceIdeal.Gen.W5 m' ρ' c (Proc.devRef .tc Cert.ReferenceIdeal.main_v24)
      = Cert.KernelIdeal.Hand.W3 m ρ c (Proc.devRef .tc Cert.KernelIdeal.main_v17) := by
  show Cert.ReferenceIdeal.Hand.resR m' ρ' c = Cert.KernelIdeal.Hand.resK m ρ c
  funext i
  obtain ⟨n, co, hh, ww, rfl⟩ : ∃ (n : Fin 8) (co : Fin 256) (hh ww : Fin 32), i = ix4 n co hh ww := ⟨i 0, i 1, i 2, i 3, eq_ix4 i⟩
  rw [Cert.ReferenceIdeal.Hand.ref_value, scale_agree (ρ := ρ) (ρ' := ρ') h c, bias_agree (ρ := ρ) (ρ' := ρ') h c, (h c).1, (h c).2.1]
  exact ((Cert.KernelIdeal.Hand.ker_value m ρ c n co hh ww).trans (Cert.Spec.kerOut_eq_refOut _ _ _ _ n co)).symm

end Cert.Bridge

end
-- ==== Proof.lean ====
/- The certificate of the fused global-pooling branch against its two-kernel reference.
   Both programs compute, for a sample and an output channel, the spatial sum of the input contracted
   with the 1×1 convolution weight, scaled by the folded batch-norm scale and by the reciprocal of the
   pooled area `2⁻¹⁰`, plus the folded bias, clamped at zero, repeated over the 32×32 plane. The kernel
   folds `2⁻¹⁰` into the weight and splits the 2048 channels in two halves read through two windows
   on one array; the reference scales the channel sum afterwards. The frames come from the launch of
   each program's regions; the value claim from reading both results as functions of the arguments
   and the distributivity of a non-negative finite factor over an extended-real sum. -/
import proofs.«152753_g2000206983220414_pallasbulk_996_14_alg».proof.Defs
import proofs.«152753_g2000206983220414_pallasbulk_996_14_alg».proof.Proof.Gen.Kernel
import proofs.«152753_g2000206983220414_pallasbulk_996_14_alg».proof.Proof.Gen.KernelIdeal
import proofs.«152753_g2000206983220414_pallasbulk_996_14_alg».proof.Proof.Gen.ReferenceIdeal
import proofs.«152753_g2000206983220414_pallasbulk_996_14_alg».proof.Proof.Gen.ReferenceIdeal.Frame
import proofs.«152753_g2000206983220414_pallasbulk_996_14_alg».proof.Proof.Gen.Pre_finite_inputs
import proofs.«152753_g2000206983220414_pallasbulk_996_14_alg».proof.Proof.KRun
import proofs.«152753_g2000206983220414_pallasbulk_996_14_alg».proof.Proof.KRunB
import proofs.«152753_g2000206983220414_pallasbulk_996_14_alg».proof.Proof.RefRun
import proofs.«152753_g2000206983220414_pallasbulk_996_14_alg».proof.Proof.Assemble
import Idealize.ShloMosaic.Adequacy
import Idealize.ShloMosaic.Init

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_finite_inputs.Gen.facts,
  fun m ρ _ => Cert.Kernel.Hand.frame m ρ,
  fun m ρ _ => Cert.KernelIdeal.Hand.frame m ρ,
  fun m ρ _ => Cert.ReferenceIdeal.Gen.frame m ρ,
  trivial,
  fun m ρ m' ρ' _ hagree =>
    ⟨fun c => Cert.KernelIdeal.Hand.W3 m ρ c (Proc.devRef .tc Cert.KernelIdeal.main_v17),
      Cert.KernelIdeal.Hand.run_main m ρ,
      (θ_run (Cert.ReferenceIdeal.defs (F := Ideal)) _ _).mono
        (fun _ h c => ⟨(h c).1.trans (Cert.Bridge.result_agree (ρ := ρ) (ρ' := ρ') hagree c), (h c).2⟩)
        (Cert.ReferenceIdeal.Hand.run_main m' ρ')⟩⟩

end Cert.Proof

end
